-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S4x128 : Shape := ⟨2, ![4, 128]⟩
abbrev S256x6 : Shape := ⟨2, ![256, 6]⟩
abbrev S6 : Shape := ⟨1, ![6]⟩
abbrev S2097152 : Shape := ⟨1, ![2097152]⟩
abbrev S2048 : Shape := ⟨1, ![2048]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_
  bcast_S_S256x6 : S_.BroadcastsInDim S256x6 (![] : Fin 0 → Fin S256x6.rank)
  reducesTo_S256x6_S_d0_1 : S256x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg7 : FVec F S6 .f32) (main_v33 : IVec S_ 1) : IVec S_ 1 :=
  let main_v34 : FVec F S6 .f32 := Host.absf main_arg7
  let main_cst_12 : FVec F S_ .f32 := constant S_ .f32 0x7F800000#32
  let main_v35 : FVec F S6 .f32 := broadcastInDim S6 ![] bcast_S_S6 main_cst_12
  let main_v36 : IVec S6 1 := cmpf .olt main_v34 main_v35
  let main_c_13 : IVec S_ 1 := constantI S_ 1 1#1
  let main_v37 : IVec S_ 1 := (fun x v => Host.reduce IntOp.andi x v reducesTo_S6_S_d0 h_S_) main_v36 main_c_13
  let main_v38 : IVec S_ 1 := andi main_v33 main_v37
  main_v38

def fn_part1 {F : FTy → Type} [FloatOps F] (main_arg4 : FVec F S128 .f32) (main_arg5 : FVec F S4x128 .f32) (main_arg6 : FVec F S256x6 .f32) (main_arg7 : FVec F S6 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S256x6 .f32 := Host.absf main_arg6
  let main_cst_10 : FVec F S_ .f32 := constant S_ .f32 0x7F800000#32
  let main_v30 : FVec F S256x6 .f32 := broadcastInDim S256x6 ![] bcast_S_S256x6 main_cst_10
  let main_v31 : IVec S256x6 1 := cmpf .olt main_v29 main_v30
  let main_c_11 : IVec S_ 1 := constantI S_ 1 1#1
  let main_v32 : IVec S_ 1 := (fun x v => Host.reduce IntOp.andi x v reducesTo_S256x6_S_d0_1 h_S_) main_v31 main_c_11
  let main_v33 : IVec S_ 1 := andi main_v28 main_v32
  fn_part2 (F := F) main_arg7 main_v33

def fn {F : FTy → Type} [FloatOps F] (main_arg0 : FVec F S262144x128 .f32) (main_arg1 : FVec F S128x256 .f32) (main_arg2 : FVec F S256 .f32) (main_arg3 : FVec F S256x128 .f32) (main_arg4 : FVec F S128 .f32) (main_arg5 : FVec F S4x128 .f32) (main_arg6 : FVec F S256x6 .f32) (main_arg7 : FVec F S6 .f32) (main_arg8 : IVec S2097152 32) (main_arg9 : IVec S2097152 32) (main_arg10 : IVec S2048 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_v13 main_v16
-- ==== Kernel.lean ====
abbrev S262144x128 : Shape := ⟨2, ![262144, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S4x128 : Shape := ⟨2, ![4, 128]⟩
abbrev S256x6 : Shape := ⟨2, ![256, 6]⟩
abbrev S6 : Shape := ⟨1, ![6]⟩
abbrev S2097152 : Shape := ⟨1, ![2097152]⟩
abbrev S2048 : Shape := ⟨1, ![2048]⟩
abbrev S_ : Shape := ⟨0, ![]⟩
abbrev S262144 : Shape := ⟨1, ![262144]⟩
abbrev S2097152x1 : Shape := ⟨2, ![2097152, 1]⟩
abbrev S262144x1 : Shape := ⟨2, ![262144, 1]⟩
abbrev S2097152x128 : Shape := ⟨2, ![2097152, 128]⟩
abbrev S1x256 : Shape := ⟨2, ![1, 256]⟩
abbrev S262144x256 : Shape := ⟨2, ![262144, 256]⟩
abbrev S8192x128 : Shape := ⟨2, ![8192, 128]⟩
abbrev S8192x256 : Shape := ⟨2, ![8192, 256]⟩
abbrev S1x128 : Shape := ⟨2, ![1, 128]⟩
abbrev S2048x128x128 : Shape := ⟨3, ![2048, 128, 128]⟩
abbrev S2048x1 : Shape := ⟨2, ![2048, 1]⟩
abbrev S2048x128 : Shape := ⟨2, ![2048, 128]⟩
abbrev S128x6 : Shape := ⟨2, ![128, 6]⟩
abbrev S1x6 : Shape := ⟨2, ![1, 6]⟩
abbrev S2048x6 : Shape := ⟨2, ![2048, 6]⟩
abbrev S128x128x128 : Shape := ⟨3, ![128, 128, 128]⟩
abbrev S128x128 : Shape := ⟨2, ![128, 128]⟩

abbrev nBuf : Space → Nat
  | .hbm => 99
  | .vmem => 20
  | .smem => 0
  | _ => 0

abbrev bufTy : (tb : Table) → Fin (tcTables nBuf tb) → BufTy
  | .hbm, ⟨0, _⟩ => ⟨S262144x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S4x128, .f32⟩
  | .hbm, ⟨6, _⟩ => ⟨S256x6, .f32⟩
  | .hbm, ⟨7, _⟩ => ⟨S6, .f32⟩
  | .hbm, ⟨8, _⟩ => ⟨S2097152, .i32⟩
  | .hbm, ⟨9, _⟩ => ⟨S2097152, .i32⟩
  | .hbm, ⟨10, _⟩ => ⟨S2048, .i32⟩
  | .hbm, ⟨11, _⟩ => ⟨S_, .f32⟩
  | .hbm, ⟨12, _⟩ => ⟨S2097152, .f32⟩
  | .hbm, ⟨13, _⟩ => ⟨S_, .f32⟩
  | .hbm, ⟨14, _⟩ => ⟨S262144, .f32⟩
  | .hbm, ⟨15, _⟩ => ⟨S2097152x1, .i32⟩
  | .hbm, ⟨16, _⟩ => ⟨S262144, .f32⟩
  | .hbm, ⟨17, _⟩ => ⟨S_, .f32⟩
  | .hbm, ⟨18, _⟩ => ⟨S262144, .f32⟩
  | .hbm, ⟨19, _⟩ => ⟨S2097152x1, .i32⟩
  | .hbm, ⟨20, _⟩ => ⟨S262144, .f32⟩
  | .hbm, ⟨21, _⟩ => ⟨S_, .f32⟩
  | .hbm, ⟨22, _⟩ => ⟨S262144, .f32⟩
  | .hbm, ⟨23, _⟩ => ⟨S262144, .i1⟩
  | .hbm, ⟨24, _⟩ => ⟨S_, .f32⟩
  | .hbm, ⟨25, _⟩ => ⟨S_, .f32⟩
  | .hbm, ⟨26, _⟩ => ⟨S262144, .f32⟩
  | .hbm, ⟨27, _⟩ => ⟨S262144, .f32⟩
  | .hbm, ⟨28, _⟩ => ⟨S_, .f32⟩
  | .hbm, ⟨29, _⟩ => ⟨S262144, .f32⟩
  | .hbm, ⟨30, _⟩ => ⟨S262144, .f32⟩
  | .hbm, ⟨31, _⟩ => ⟨S_, .f32⟩
  | .hbm, ⟨32, _⟩ => ⟨S262144, .f32⟩
  | .hbm, ⟨33, _⟩ => ⟨S262144, .i1⟩
  | .hbm, ⟨34, _⟩ => ⟨S_, .f32⟩
  | .hbm, ⟨35, _⟩ => ⟨S_, .f32⟩
  | .hbm, ⟨36, _⟩ => ⟨S262144, .f32⟩
  | .hbm, ⟨37, _⟩ => ⟨S262144, .f32⟩
  | .hbm, ⟨38, _⟩ => ⟨S_, .f32⟩
  | .hbm, ⟨39, _⟩ => ⟨S262144, .f32⟩
  | .hbm, ⟨40, _⟩ => ⟨S262144, .f32⟩
  | .hbm, ⟨41, _⟩ => ⟨S262144x1, .f32⟩
  | .hbm, ⟨42, _⟩ => ⟨S262144x128, .f32⟩
  | .hbm, ⟨43, _⟩ => ⟨S262144x128, .f32⟩
  | .hbm, ⟨44, _⟩ => ⟨S_, .i32⟩
  | .hbm, ⟨45, _⟩ => ⟨S2097152, .i32⟩
  | .hbm, ⟨46, _⟩ => ⟨S2097152, .i1⟩
  | .hbm, ⟨47, _⟩ => ⟨S_, .i32⟩
  | .hbm, ⟨48, _⟩ => ⟨S2097152, .i32⟩
  | .hbm, ⟨49, _⟩ => ⟨S2097152, .i32⟩
  | .hbm, ⟨50, _⟩ => ⟨S2097152, .i32⟩
  | .hbm, ⟨51, _⟩ => ⟨S2097152x1, .i32⟩
  | .hbm, ⟨52, _⟩ => ⟨S2097152x128, .f32⟩
  | .hbm, ⟨53, _⟩ => ⟨S_, .f32⟩
  | .hbm, ⟨54, _⟩ => ⟨S262144x128, .f32⟩
  | .hbm, ⟨55, _⟩ => ⟨S2097152x1, .i32⟩
  | .hbm, ⟨56, _⟩ => ⟨S262144x128, .f32⟩
  | .hbm, ⟨57, _⟩ => ⟨S262144x1, .f32⟩
  | .hbm, ⟨58, _⟩ => ⟨S262144x128, .f32⟩
  | .hbm, ⟨59, _⟩ => ⟨S262144x128, .f32⟩
  | .hbm, ⟨60, _⟩ => ⟨S1x256, .f32⟩
  | .hbm, ⟨61, _⟩ => ⟨S262144x256, .bf16⟩
  | .hbm, ⟨62, _⟩ => ⟨S262144x128, .f32⟩
  | .hbm, ⟨63, _⟩ => ⟨S262144x1, .f32⟩
  | .hbm, ⟨64, _⟩ => ⟨S262144x128, .f32⟩
  | .hbm, ⟨65, _⟩ => ⟨S262144x128, .f32⟩
  | .hbm, ⟨66, _⟩ => ⟨S_, .i32⟩
  | .hbm, ⟨67, _⟩ => ⟨S2097152, .i32⟩
  | .hbm, ⟨68, _⟩ => ⟨S2097152, .i1⟩
  | .hbm, ⟨69, _⟩ => ⟨S_, .i32⟩
  | .hbm, ⟨70, _⟩ => ⟨S2097152, .i32⟩
  | .hbm, ⟨71, _⟩ => ⟨S2097152, .i32⟩
  | .hbm, ⟨72, _⟩ => ⟨S2097152, .i32⟩
  | .hbm, ⟨73, _⟩ => ⟨S2097152x1, .i32⟩
  | .hbm, ⟨74, _⟩ => ⟨S2097152x128, .f32⟩
  | .hbm, ⟨75, _⟩ => ⟨S_, .f32⟩
  | .hbm, ⟨76, _⟩ => ⟨S262144x128, .f32⟩
  | .hbm, ⟨77, _⟩ => ⟨S2097152x1, .i32⟩
  | .hbm, ⟨78, _⟩ => ⟨S262144x128, .f32⟩
  | .hbm, ⟨79, _⟩ => ⟨S262144x1, .f32⟩
  | .hbm, ⟨80, _⟩ => ⟨S262144x128, .f32⟩
  | .hbm, ⟨81, _⟩ => ⟨S262144x128, .f32⟩
  | .hbm, ⟨82, _⟩ => ⟨S1x128, .f32⟩
  | .hbm, ⟨83, _⟩ => ⟨S262144x128, .f32⟩
  | .hbm, ⟨84, _⟩ => ⟨S262144x128, .f32⟩
  | .hbm, ⟨85, _⟩ => ⟨S2048x128x128, .f32⟩
  | .hbm, ⟨86, _⟩ => ⟨S_, .i32⟩
  | .hbm, ⟨87, _⟩ => ⟨S2048, .i32⟩
  | .hbm, ⟨88, _⟩ => ⟨S2048, .i1⟩
  | .hbm, ⟨89, _⟩ => ⟨S_, .i32⟩
  | .hbm, ⟨90, _⟩ => ⟨S2048, .i32⟩
  | .hbm, ⟨91, _⟩ => ⟨S2048, .i32⟩
  | .hbm, ⟨92, _⟩ => ⟨S2048, .i32⟩
  | .hbm, ⟨93, _⟩ => ⟨S2048x1, .i32⟩
  | .hbm, ⟨94, _⟩ => ⟨S2048x128, .f32⟩
  | .hbm, ⟨95, _⟩ => ⟨S128x6, .f32⟩
  | .hbm, ⟨96, _⟩ => ⟨S128x6, .f32⟩
  | .hbm, ⟨97, _⟩ => ⟨S1x6, .f32⟩
  | .hbm, ⟨98, _⟩ => ⟨S2048x6, .f32⟩
  | .local _ .vmem, ⟨0, _⟩ => ⟨S8192x128, .f32⟩
  | .local _ .vmem, ⟨1, _⟩ => ⟨S8192x128, .f32⟩
  | .local _ .vmem, ⟨2, _⟩ => ⟨S128x256, .f32⟩
  | .local _ .vmem, ⟨3, _⟩ => ⟨S1x256, .f32⟩
  | .local _ .vmem, ⟨4, _⟩ => ⟨S8192x256, .bf16⟩
  | .local _ .vmem, ⟨5, _⟩ => ⟨S8192x256, .bf16⟩
  | .local _ .vmem, ⟨6, _⟩ => ⟨S8192x256, .bf16⟩
  | .local _ .vmem, ⟨7, _⟩ => ⟨S8192x256, .bf16⟩
  | .local _ .vmem, ⟨8, _⟩ => ⟨S256x128, .f32⟩
  | .local _ .vmem, ⟨9, _⟩ => ⟨S8192x128, .f32⟩
  | .local _ .vmem, ⟨10, _⟩ => ⟨S8192x128, .f32⟩
  | .local _ .vmem, ⟨11, _⟩ => ⟨S128x128x128, .f32⟩
  | .local _ .vmem, ⟨12, _⟩ => ⟨S128x128x128, .f32⟩
  | .local _ .vmem, ⟨13, _⟩ => ⟨S128x128, .f32⟩
  | .local _ .vmem, ⟨14, _⟩ => ⟨S128x128, .f32⟩
  | .local _ .vmem, ⟨15, _⟩ => ⟨S128x6, .f32⟩
  | .local _ .vmem, ⟨16, _⟩ => ⟨S128x6, .f32⟩
  | .local _ .vmem, ⟨17, _⟩ => ⟨S1x6, .f32⟩
  | .local _ .vmem, ⟨18, _⟩ => ⟨S128x6, .f32⟩
  | .local _ .vmem, ⟨19, _⟩ => ⟨S128x6, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_v11 : Ref sig .tc := ⟨.hbm, 30, rfl⟩
abbrev main_cst_5 : Ref sig .tc := ⟨.hbm, 31, rfl⟩
abbrev main_v12 : Ref sig .tc := ⟨.hbm, 32, rfl⟩
abbrev main_v13 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v14 : Ref sig .tc := ⟨.hbm, 37, rfl⟩
abbrev main_cst_7 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c : Ref sig .tc := ⟨.hbm, 44, rfl⟩
abbrev main_v20 : Ref sig .tc := ⟨.hbm, 45, rfl⟩
abbrev main_v21 : Ref sig .tc := ⟨.hbm, 46, rfl⟩
abbrev main_c_8 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_9 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_10 : Ref sig .tc := ⟨.hbm, 66, rfl⟩
abbrev main_v39 : Ref sig .tc := ⟨.hbm, 67, rfl⟩
abbrev main_v40 : Ref sig .tc := ⟨.hbm, 68, rfl⟩
abbrev main_c_11 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_12 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_13 : Ref sig .tc := ⟨.hbm, 86, rfl⟩
abbrev main_v56 : Ref sig .tc := ⟨.hbm, 87, rfl⟩
abbrev main_v57 : Ref sig .tc := ⟨.hbm, 88, rfl⟩
abbrev main_c_14 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x6 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x6 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x6 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S128x6 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S2097152 : S_.BroadcastsInDim S2097152 (![] : Fin 0 → Fin S2097152.rank)
  bcast_S_S262144 : S_.BroadcastsInDim S262144 (![] : Fin 0 → Fin S262144.rank)
  bcast_S2097152_S2097152x1_0 : S2097152.BroadcastsInDim S2097152x1 (![0] : Fin 1 → Fin S2097152x1.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  bcast_S_S262144x128 : S_.BroadcastsInDim S262144x128 (![] : Fin 0 → Fin S262144x128.rank)
  shapeCasts_S256_S1x256 : S256.ShapeCasts S1x256
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S8192x256_S8192x256_0_0 : ∀ a, (![0, 0] : Fin 2 → Nat) a + S8192x256.size a ≤ S8192x256.size a
  h_S8192x256 : 0 < S8192x256.numel
  packedbf16_S8192x256_S8192x256_0_0 : (Rect.unit (s := S8192x256) ![0, 0] S8192x256.size inb_S8192x256_S8192x256_0_0).PackedRows (EltTy.packing .bf16)
  shapeCasts_S8192x256_S8192x256 : S8192x256.ShapeCasts S8192x256
  inb_S256x128_S256x128_0_0 : ∀ a, (![0, 0] : Fin 2 → Nat) a + S256x128.size a ≤ S256x128.size a
  h_S256x128 : 0 < S256x128.numel
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  shapeCasts_S262144x128_S2048x128x128 : S262144x128.ShapeCasts S2048x128x128
  bcast_S_S2048 : S_.BroadcastsInDim S2048 (![] : Fin 0 → Fin S2048.rank)
  bcast_S2048_S2048x1_0 : S2048.BroadcastsInDim S2048x1 (![0] : Fin 1 → Fin S2048x1.rank)
  slices_S256x6_S128x6_0_0 : S256x6.Slices ![0, 0] S128x6
  slices_S256x6_S128x6_128_0 : S256x6.Slices ![128, 0] S128x6
  shapeCasts_S6_S1x6 : S6.ShapeCasts S1x6
  inb_S128x128x128_S128x128x128_0_0_0 : ∀ a, (![0, 0, 0] : Fin 3 → Nat) a + S128x128x128.size a ≤ S128x128x128.size a
  h_S128x128x128 : 0 < S128x128x128.numel
  shapeCasts_S128x128x128_S128x128x128 : S128x128x128.ShapeCasts S128x128x128
  reduces_S128x128x128_S128x128 : S128x128x128.Reduces [1] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x6_S128x6_0_0 : ∀ a, (![0, 0] : Fin 2 → Nat) a + S128x6.size a ≤ S128x6.size a
  h_S128x6 : 0 < S128x6.numel
  shapeCasts_S128x6_S128x6 : S128x6.ShapeCasts S128x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S128x6 : S1x6.Broadcasts S128x6
  scatter_S262144_S2097152x1_S2097152_n_0_0_1_wf : ScatterDims.WF S262144 S2097152x1 S2097152 [] [0] [0] 1
  gather_S262144x128_S2097152x1_S2097152x128_1_0_n_n_0_1_1128_wf : GatherDims.WF S262144x128 S2097152x1 S2097152x128 [1] [0] [] [0] [] 1 ![1, 128]
  scatter_S262144x128_S2097152x1_S2097152x128_1_0_0_1_wf : ScatterDims.WF S262144x128 S2097152x1 S2097152x128 [1] [0] [0] 1
  dot_S8192x128_S128x256_S8192x256_1_0_0_1_n_n_wf : DotDims.WF S8192x128 S128x256 S8192x256 [1] [0] [0] [1] [] []
  dot_S8192x256_S256x128_S8192x128_1_0_0_1_n_n_wf : DotDims.WF S8192x256 S256x128 S8192x128 [1] [0] [0] [1] [] []
  gather_S4x128_S2048x1_S2048x128_1_0_n_n_0_1_1128_wf : GatherDims.WF S4x128 S2048x1 S2048x128 [1] [0] [] [0] [] 1 ![1, 128]
  dot_S128x128_S128x6_S128x6_1_0_0_1_n_n_wf : DotDims.WF S128x128 S128x6 S128x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S262144x256.size a
  hwx0_3 : ∀ i : grid0.Coords, EltTy.bits .bf16 = 32 ∨ (Rect.block (s := S262144x256) S8192x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S262144x256.size a
  hwx1_0 : ∀ i : grid1.Coords, EltTy.bits .bf16 = 32 ∨ (Rect.block (s := S262144x256) S8192x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S262144x128.size a
  hwx1_2 : ∀ i : grid1.Coords, EltTy.bits .f32 = 32 ∨ (Rect.block (s := S262144x128) S8192x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x128x128.size a ≤ S2048x128x128.size a
  hwx2_0 : ∀ i : grid2.Coords, EltTy.bits .f32 = 32 ∨ (Rect.block (s := S2048x128x128) S128x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S2048x128.size a
  hwx2_1 : ∀ i : grid2.Coords, EltTy.bits .f32 = 32 ∨ (Rect.block (s := S2048x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x6.size a ≤ S128x6.size a
  hwx2_2 : ∀ i : grid2.Coords, EltTy.bits .f32 = 32 ∨ (Rect.block (s := S128x6) S128x6.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x6.size a ≤ S128x6.size a
  hwx2_3 : ∀ i : grid2.Coords, EltTy.bits .f32 = 32 ∨ (Rect.block (s := S128x6) S128x6.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x6.size a ≤ S1x6.size a
  hwx2_4 : ∀ i : grid2.Coords, EltTy.bits .f32 = 32 ∨ (Rect.block (s := S1x6) S1x6.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S128x6.size a ≤ S2048x6.size a
  hwx2_5 : ∀ i : grid2.Coords, EltTy.bits .f32 = 32 ∨ (Rect.block (s := S2048x6) S128x6.size (cc2_transform_5 i) (hinb2_5 i)).WholeWords (EltTy.packing .f32)

variable [Facts₀]

def scatter_S262144_S2097152x1_S2097152_n_0_0_1 : ScatterDims S262144 S2097152x1 S2097152 where
  updateWindowDims := []
  insertedWindowDims := [0]
  scatterDimsToOperandDims := [0]
  indexVectorDim := 1
  wf := scatter_S262144_S2097152x1_S2097152_n_0_0_1_wf
def gather_S262144x128_S2097152x1_S2097152x128_1_0_n_n_0_1_1128 : GatherDims S262144x128 S2097152x1 S2097152x128 where
  offsetDims := [1]
  collapsedSliceDims := [0]
  operandBatchingDims := []
  startIndicesBatchingDims := []
  startIndexMap := [0]
  indexVectorDim := 1
  sliceSizes := ![1, 128]
  wf := gather_S262144x128_S2097152x1_S2097152x128_1_0_n_n_0_1_1128_wf
def scatter_S262144x128_S2097152x1_S2097152x128_1_0_0_1 : ScatterDims S262144x128 S2097152x1 S2097152x128 where
  updateWindowDims := [1]
  insertedWindowDims := [0]
  scatterDimsToOperandDims := [0]
  indexVectorDim := 1
  wf := scatter_S262144x128_S2097152x1_S2097152x128_1_0_0_1_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S4x128_S2048x1_S2048x128_1_0_n_n_0_1_1128 : GatherDims S4x128 S2048x1 S2048x128 where
  offsetDims := [1]
  collapsedSliceDims := [0]
  operandBatchingDims := []
  startIndicesBatchingDims := []
  startIndexMap := [0]
  indexVectorDim := 1
  sliceSizes := ![1, 128]
  wf := gather_S4x128_S2048x1_S2048x128_1_0_n_n_0_1_1128_wf
def dot_S128x128_S128x6_S128x6_1_0_0_1_n_n : DotDims S128x128 S128x6 S128x6 where
  lhsContracting := [1]
  rhsContracting := [0]
  lhsNonContracting := [0]
  rhsNonContracting := [1]
  lhsBatch := []
  rhsBatch := []
  wf := dot_S128x128_S128x6_S128x6_1_0_0_1_n_n_wf

abbrev win0_0 : Pipeline.Window sig grid0 :=
  Pipeline.Window.ofSpec (Memref.whole main_v32) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S8192x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S8192x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v55) S128x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S128x6.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x6.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x6.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S128x6.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S262144x128 : Shape := ⟨2, ![262144, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S4x128 : Shape := ⟨2, ![4, 128]⟩
abbrev S256x6 : Shape := ⟨2, ![256, 6]⟩
abbrev S6 : Shape := ⟨1, ![6]⟩
abbrev S2097152 : Shape := ⟨1, ![2097152]⟩
abbrev S2048 : Shape := ⟨1, ![2048]⟩
abbrev S_ : Shape := ⟨0, ![]⟩
abbrev S262144 : Shape := ⟨1, ![262144]⟩
abbrev S2097152x1 : Shape := ⟨2, ![2097152, 1]⟩
abbrev S262144x1 : Shape := ⟨2, ![262144, 1]⟩
abbrev S2097152x128 : Shape := ⟨2, ![2097152, 128]⟩
abbrev S262144x256 : Shape := ⟨2, ![262144, 256]⟩
abbrev S1x256 : Shape := ⟨2, ![1, 256]⟩
abbrev S1x128 : Shape := ⟨2, ![1, 128]⟩
abbrev S2048x128x128 : Shape := ⟨3, ![2048, 128, 128]⟩
abbrev S2048x128 : Shape := ⟨2, ![2048, 128]⟩
abbrev S2048x1 : Shape := ⟨2, ![2048, 1]⟩
abbrev S2048x256 : Shape := ⟨2, ![2048, 256]⟩
abbrev S2048x6 : Shape := ⟨2, ![2048, 6]⟩
abbrev S1x6 : Shape := ⟨2, ![1, 6]⟩

abbrev nBuf : Space → Nat
  | .hbm => 110
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S4x128, .f32⟩
  | .hbm, ⟨6, _⟩ => ⟨S256x6, .f32⟩
  | .hbm, ⟨7, _⟩ => ⟨S6, .f32⟩
  | .hbm, ⟨8, _⟩ => ⟨S2097152, .i32⟩
  | .hbm, ⟨9, _⟩ => ⟨S2097152, .i32⟩
  | .hbm, ⟨10, _⟩ => ⟨S2048, .i32⟩
  | .hbm, ⟨11, _⟩ => ⟨S_, .f32⟩
  | .hbm, ⟨12, _⟩ => ⟨S2097152, .f32⟩
  | .hbm, ⟨13, _⟩ => ⟨S_, .f32⟩
  | .hbm, ⟨14, _⟩ => ⟨S262144, .f32⟩
  | .hbm, ⟨15, _⟩ => ⟨S2097152x1, .i32⟩
  | .hbm, ⟨16, _⟩ => ⟨S262144, .f32⟩
  | .hbm, ⟨17, _⟩ => ⟨S_, .f32⟩
  | .hbm, ⟨18, _⟩ => ⟨S262144, .f32⟩
  | .hbm, ⟨19, _⟩ => ⟨S2097152x1, .i32⟩
  | .hbm, ⟨20, _⟩ => ⟨S262144, .f32⟩
  | .hbm, ⟨21, _⟩ => ⟨S_, .f32⟩
  | .hbm, ⟨22, _⟩ => ⟨S262144, .f32⟩
  | .hbm, ⟨23, _⟩ => ⟨S262144, .i1⟩
  | .hbm, ⟨24, _⟩ => ⟨S_, .f32⟩
  | .hbm, ⟨25, _⟩ => ⟨S_, .f32⟩
  | .hbm, ⟨26, _⟩ => ⟨S262144, .f32⟩
  | .hbm, ⟨27, _⟩ => ⟨S262144, .f32⟩
  | .hbm, ⟨28, _⟩ => ⟨S_, .f32⟩
  | .hbm, ⟨29, _⟩ => ⟨S262144, .f32⟩
  | .hbm, ⟨30, _⟩ => ⟨S262144, .f32⟩
  | .hbm, ⟨31, _⟩ => ⟨S_, .f32⟩
  | .hbm, ⟨32, _⟩ => ⟨S262144, .f32⟩
  | .hbm, ⟨33, _⟩ => ⟨S262144, .i1⟩
  | .hbm, ⟨34, _⟩ => ⟨S_, .f32⟩
  | .hbm, ⟨35, _⟩ => ⟨S_, .f32⟩
  | .hbm, ⟨36, _⟩ => ⟨S262144, .f32⟩
  | .hbm, ⟨37, _⟩ => ⟨S262144, .f32⟩
  | .hbm, ⟨38, _⟩ => ⟨S_, .f32⟩
  | .hbm, ⟨39, _⟩ => ⟨S262144, .f32⟩
  | .hbm, ⟨40, _⟩ => ⟨S262144, .f32⟩
  | .hbm, ⟨41, _⟩ => ⟨S262144x1, .f32⟩
  | .hbm, ⟨42, _⟩ => ⟨S262144x128, .f32⟩
  | .hbm, ⟨43, _⟩ => ⟨S262144x128, .f32⟩
  | .hbm, ⟨44, _⟩ => ⟨S_, .i32⟩
  | .hbm, ⟨45, _⟩ => ⟨S2097152, .i32⟩
  | .hbm, ⟨46, _⟩ => ⟨S2097152, .i1⟩
  | .hbm, ⟨47, _⟩ => ⟨S_, .i32⟩
  | .hbm, ⟨48, _⟩ => ⟨S2097152, .i32⟩
  | .hbm, ⟨49, _⟩ => ⟨S2097152, .i32⟩
  | .hbm, ⟨50, _⟩ => ⟨S2097152, .i32⟩
  | .hbm, ⟨51, _⟩ => ⟨S2097152x1, .i32⟩
  | .hbm, ⟨52, _⟩ => ⟨S2097152x128, .f32⟩
  | .hbm, ⟨53, _⟩ => ⟨S_, .f32⟩
  | .hbm, ⟨54, _⟩ => ⟨S262144x128, .f32⟩
  | .hbm, ⟨55, _⟩ => ⟨S2097152x1, .i32⟩
  | .hbm, ⟨56, _⟩ => ⟨S262144x128, .f32⟩
  | .hbm, ⟨57, _⟩ => ⟨S262144x1, .f32⟩
  | .hbm, ⟨58, _⟩ => ⟨S262144x128, .f32⟩
  | .hbm, ⟨59, _⟩ => ⟨S262144x128, .f32⟩
  | .hbm, ⟨60, _⟩ => ⟨S262144x256, .f32⟩
  | .hbm, ⟨61, _⟩ => ⟨S1x256, .f32⟩
  | .hbm, ⟨62, _⟩ => ⟨S262144x256, .f32⟩
  | .hbm, ⟨63, _⟩ => ⟨S262144x256, .f32⟩
  | .hbm, ⟨64, _⟩ => ⟨S_, .f32⟩
  | .hbm, ⟨65, _⟩ => ⟨S262144x256, .f32⟩
  | .hbm, ⟨66, _⟩ => ⟨S262144x256, .f32⟩
  | .hbm, ⟨67, _⟩ => ⟨S262144x128, .f32⟩
  | .hbm, ⟨68, _⟩ => ⟨S262144x1, .f32⟩
  | .hbm, ⟨69, _⟩ => ⟨S262144x128, .f32⟩
  | .hbm, ⟨70, _⟩ => ⟨S262144x128, .f32⟩
  | .hbm, ⟨71, _⟩ => ⟨S_, .i32⟩
  | .hbm, ⟨72, _⟩ => ⟨S2097152, .i32⟩
  | .hbm, ⟨73, _⟩ => ⟨S2097152, .i1⟩
  | .hbm, ⟨74, _⟩ => ⟨S_, .i32⟩
  | .hbm, ⟨75, _⟩ => ⟨S2097152, .i32⟩
  | .hbm, ⟨76, _⟩ => ⟨S2097152, .i32⟩
  | .hbm, ⟨77, _⟩ => ⟨S2097152, .i32⟩
  | .hbm, ⟨78, _⟩ => ⟨S2097152x1, .i32⟩
  | .hbm, ⟨79, _⟩ => ⟨S2097152x128, .f32⟩
  | .hbm, ⟨80, _⟩ => ⟨S_, .f32⟩
  | .hbm, ⟨81, _⟩ => ⟨S262144x128, .f32⟩
  | .hbm, ⟨82, _⟩ => ⟨S2097152x1, .i32⟩
  | .hbm, ⟨83, _⟩ => ⟨S262144x128, .f32⟩
  | .hbm, ⟨84, _⟩ => ⟨S262144x1, .f32⟩
  | .hbm, ⟨85, _⟩ => ⟨S262144x128, .f32⟩
  | .hbm, ⟨86, _⟩ => ⟨S262144x128, .f32⟩
  | .hbm, ⟨87, _⟩ => ⟨S1x128, .f32⟩
  | .hbm, ⟨88, _⟩ => ⟨S262144x128, .f32⟩
  | .hbm, ⟨89, _⟩ => ⟨S262144x128, .f32⟩
  | .hbm, ⟨90, _⟩ => ⟨S2048x128x128, .f32⟩
  | .hbm, ⟨91, _⟩ => ⟨S_, .f32⟩
  | .hbm, ⟨92, _⟩ => ⟨S2048x128, .f32⟩
  | .hbm, ⟨93, _⟩ => ⟨S_, .f32⟩
  | .hbm, ⟨94, _⟩ => ⟨S2048x128, .f32⟩
  | .hbm, ⟨95, _⟩ => ⟨S2048x128, .f32⟩
  | .hbm, ⟨96, _⟩ => ⟨S_, .i32⟩
  | .hbm, ⟨97, _⟩ => ⟨S2048, .i32⟩
  | .hbm, ⟨98, _⟩ => ⟨S2048, .i1⟩
  | .hbm, ⟨99, _⟩ => ⟨S_, .i32⟩
  | .hbm, ⟨100, _⟩ => ⟨S2048, .i32⟩
  | .hbm, ⟨101, _⟩ => ⟨S2048, .i32⟩
  | .hbm, ⟨102, _⟩ => ⟨S2048, .i32⟩
  | .hbm, ⟨103, _⟩ => ⟨S2048x1, .i32⟩
  | .hbm, ⟨104, _⟩ => ⟨S2048x128, .f32⟩
  | .hbm, ⟨105, _⟩ => ⟨S2048x256, .f32⟩
  | .hbm, ⟨106, _⟩ => ⟨S2048x6, .f32⟩
  | .hbm, ⟨107, _⟩ => ⟨S1x6, .f32⟩
  | .hbm, ⟨108, _⟩ => ⟨S2048x6, .f32⟩
  | .hbm, ⟨109, _⟩ => ⟨S2048x6, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_v11 : Ref sig .tc := ⟨.hbm, 30, rfl⟩
abbrev main_cst_5 : Ref sig .tc := ⟨.hbm, 31, rfl⟩
abbrev main_v12 : Ref sig .tc := ⟨.hbm, 32, rfl⟩
abbrev main_v13 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v14 : Ref sig .tc := ⟨.hbm, 37, rfl⟩
abbrev main_cst_7 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c : Ref sig .tc := ⟨.hbm, 44, rfl⟩
abbrev main_v20 : Ref sig .tc := ⟨.hbm, 45, rfl⟩
abbrev main_v21 : Ref sig .tc := ⟨.hbm, 46, rfl⟩
abbrev main_c_8 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_9 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call2_cst : Ref sig .tc := ⟨.hbm, 64, rfl⟩
abbrev main_call2_v0 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_10 : Ref sig .tc := ⟨.hbm, 71, rfl⟩
abbrev main_v42 : Ref sig .tc := ⟨.hbm, 72, rfl⟩
abbrev main_v43 : Ref sig .tc := ⟨.hbm, 73, rfl⟩
abbrev main_c_11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_12 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_cst_14 : Ref sig .tc := ⟨.hbm, 93, rfl⟩
abbrev main_v60 : Ref sig .tc := ⟨.hbm, 94, rfl⟩
abbrev main_v61 : Ref sig .tc := ⟨.hbm, 95, rfl⟩
abbrev main_c_15 : Ref sig .tc := ⟨.hbm, 96, rfl⟩
abbrev main_v62 : Ref sig .tc := ⟨.hbm, 97, rfl⟩
abbrev main_v63 : Ref sig .tc := ⟨.hbm, 98, rfl⟩
abbrev main_c_16 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S_S262144 : S_.BroadcastsInDim S262144 (![] : Fin 0 → Fin S262144.rank)
  bcast_S2097152_S2097152x1_0 : S2097152.BroadcastsInDim S2097152x1 (![0] : Fin 1 → Fin S2097152x1.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  bcast_S_S262144x128 : S_.BroadcastsInDim S262144x128 (![] : Fin 0 → Fin S262144x128.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  shapeCasts_S262144x128_S2048x128x128 : S262144x128.ShapeCasts S2048x128x128
  reducesTo_S2048x128x128_S2048x128_d1 : S2048x128x128.ReducesTo [1] S2048x128
  h_S_ : 0 < S_.numel
  bcast_S_S2048x128 : S_.BroadcastsInDim S2048x128 (![] : Fin 0 → Fin S2048x128.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x128_S2048x128_S2048x256_d1 : Shape.Concatenates [S2048x128, S2048x128] S2048x256 1
  bcast_S6_S1x6_1 : S6.BroadcastsInDim S1x6 (![1] : Fin 1 → Fin S1x6.rank)
  bcast_S1x6_S2048x6_0_1 : S1x6.BroadcastsInDim S2048x6 (![0, 1] : Fin 2 → Fin S2048x6.rank)
  scatter_S262144_S2097152x1_S2097152_n_0_0_1_wf : ScatterDims.WF S262144 S2097152x1 S2097152 [] [0] [0] 1
  gather_S262144x128_S2097152x1_S2097152x128_1_0_n_n_0_1_1128_wf : GatherDims.WF S262144x128 S2097152x1 S2097152x128 [1] [0] [] [0] [] 1 ![1, 128]
  scatter_S262144x128_S2097152x1_S2097152x128_1_0_0_1_wf : ScatterDims.WF S262144x128 S2097152x1 S2097152x128 [1] [0] [0] 1
  dot_S262144x128_S128x256_S262144x256_1_0_0_1_n_n_wf : DotDims.WF S262144x128 S128x256 S262144x256 [1] [0] [0] [1] [] []
  dot_S262144x256_S256x128_S262144x128_1_0_0_1_n_n_wf : DotDims.WF S262144x256 S256x128 S262144x128 [1] [0] [0] [1] [] []
  gather_S4x128_S2048x1_S2048x128_1_0_n_n_0_1_1128_wf : GatherDims.WF S4x128 S2048x1 S2048x128 [1] [0] [] [0] [] 1 ![1, 128]
  dot_S2048x256_S256x6_S2048x6_1_0_0_1_n_n_wf : DotDims.WF S2048x256 S256x6 S2048x6 [1] [0] [0] [1] [] []

variable [Facts₀]

def scatter_S262144_S2097152x1_S2097152_n_0_0_1 : ScatterDims S262144 S2097152x1 S2097152 where
  updateWindowDims := []
  insertedWindowDims := [0]
  scatterDimsToOperandDims := [0]
  indexVectorDim := 1
  wf := scatter_S262144_S2097152x1_S2097152_n_0_0_1_wf
def gather_S262144x128_S2097152x1_S2097152x128_1_0_n_n_0_1_1128 : GatherDims S262144x128 S2097152x1 S2097152x128 where
  offsetDims := [1]
  collapsedSliceDims := [0]
  operandBatchingDims := []
  startIndicesBatchingDims := []
  startIndexMap := [0]
  indexVectorDim := 1
  sliceSizes := ![1, 128]
  wf := gather_S262144x128_S2097152x1_S2097152x128_1_0_n_n_0_1_1128_wf
def scatter_S262144x128_S2097152x1_S2097152x128_1_0_0_1 : ScatterDims S262144x128 S2097152x1 S2097152x128 where
  updateWindowDims := [1]
  insertedWindowDims := [0]
  scatterDimsToOperandDims := [0]
  indexVectorDim := 1
  wf := scatter_S262144x128_S2097152x1_S2097152x128_1_0_0_1_wf
def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def gather_S4x128_S2048x1_S2048x128_1_0_n_n_0_1_1128 : GatherDims S4x128 S2048x1 S2048x128 where
  offsetDims := [1]
  collapsedSliceDims := [0]
  operandBatchingDims := []
  startIndicesBatchingDims := []
  startIndexMap := [0]
  indexVectorDim := 1
  sliceSizes := ![1, 128]
  wf := gather_S4x128_S2048x1_S2048x128_1_0_n_n_0_1_1128_wf
def dot_S2048x256_S256x6_S2048x6_1_0_0_1_n_n : DotDims S2048x256 S256x6 S2048x6 where
  lhsContracting := [1]
  rhsContracting := [0]
  lhsNonContracting := [0]
  rhsNonContracting := [1]
  lhsBatch := []
  rhsBatch := []
  wf := dot_S2048x256_S256x6_S2048x6_1_0_0_1_n_n_wf

class Facts : Prop extends Facts₀ where

variable [Facts]
-- ==== Proof.Region0.lean ====
/-
  First projection layer, kernel side. The grid has 32 points; point t loads rows 8192·t … 8192·t + 8191 of the
  feature array X (262144 × 128), the whole weight W (128 × 256) and the whole bias row B (1 × 256), and stores rows
  8192·t … of the output. At the extended reals the product into a zero accumulator is the plain sum over the
  contracted axis, a change of float format is the identity, the bias row is repeated down the rows, and the
  rectifier is the maximum with 0; so the block point t writes back is block t of the whole-array function
  G(r, q) = max (∑ₖ X(r, k) · W(k, q) + B(0, q)) 0; the 32 blocks tile the array, hence the array ends at G.
-/
import proofs.«167016_j24756191494756_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.GraphConv.Layer1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The body's stored value at an index -/

theorem lhs_0 (j : S8192x256.Idx) (q : dot_S8192x128_S128x256_S8192x256_1_0_0_1_n_n.contr.Idx) :
    (dot_S8192x128_S128x256_S8192x256_1_0_0_1_n_n.lhsIdx j q 0).val = (j 0).val := by
  unfold DotDims.lhsIdx
  rw [dif_neg (show ¬(0 : Fin S8192x128.rank) ∈ dot_S8192x128_S128x256_S8192x256_1_0_0_1_n_n.lhsBatch by decide), dif_pos (show (0 : Fin S8192x128.rank) ∈ dot_S8192x128_S128x256_S8192x256_1_0_0_1_n_n.lhsNonContracting by decide)]
  rfl
theorem lhs_1 (j : S8192x256.Idx) (q : dot_S8192x128_S128x256_S8192x256_1_0_0_1_n_n.contr.Idx) :
    (dot_S8192x128_S128x256_S8192x256_1_0_0_1_n_n.lhsIdx j q 1).val = (q ⟨0, by decide⟩).val :=
  dot_S8192x128_S128x256_S8192x256_1_0_0_1_n_n.lhsIdx_val_of_single rfl j q
theorem rhs_0 (j : S8192x256.Idx) (q : dot_S8192x128_S128x256_S8192x256_1_0_0_1_n_n.contr.Idx) :
    (dot_S8192x128_S128x256_S8192x256_1_0_0_1_n_n.rhsIdx j q 0).val = (q ⟨0, by decide⟩).val :=
  dot_S8192x128_S128x256_S8192x256_1_0_0_1_n_n.rhsIdx_val_of_single rfl j q
theorem rhs_1 (j : S8192x256.Idx) (q : dot_S8192x128_S128x256_S8192x256_1_0_0_1_n_n.contr.Idx) :
    (dot_S8192x128_S128x256_S8192x256_1_0_0_1_n_n.rhsIdx j q 1).val = (j 1).val := by
  unfold DotDims.rhsIdx
  rw [dif_neg (show ¬(1 : Fin S128x256.rank) ∈ dot_S8192x128_S128x256_S8192x256_1_0_0_1_n_n.rhsBatch by decide), dif_pos (show (1 : Fin S128x256.rank) ∈ dot_S8192x128_S128x256_S8192x256_1_0_0_1_n_n.rhsNonContracting by decide)]
  rfl

/-- Row `j 0`, column `k` of the feature block. -/
abbrev xIdx (j : S8192x256.Idx) (k : Fin 128) : S8192x128.Idx := fun a => match a with
  | ⟨0, _⟩ => ⟨(j 0).val, (j 0).isLt⟩
  | ⟨1, _⟩ => ⟨k.val, k.isLt⟩
/-- Row `k`, column `j 1` of the weight. -/
abbrev wIdx (j : S8192x256.Idx) (k : Fin 128) : S128x256.Idx := fun a => match a with
  | ⟨0, _⟩ => ⟨k.val, k.isLt⟩
  | ⟨1, _⟩ => ⟨(j 1).val, (j 1).isLt⟩
/-- Row 0, column `j 1` of the bias row. -/
abbrev bIdx (j : S8192x256.Idx) : S1x256.Idx := fun a => match a with
  | ⟨0, _⟩ => ⟨0, by show (0 : Nat) < 1; omega⟩
  | ⟨1, _⟩ => ⟨(j 1).val, (j 1).isLt⟩

/-- The bias row repeated down the rows, read at an index: the row's entry in that column. -/
theorem bias_apply (x2 : Vec Ideal S1x256 .f32) (j : S8192x256.Idx) :
    broadcastTo S8192x256 (shapeCast S1x256 x2 shapeCasts_S1x256_S1x256) broadcasts_S1x256_S8192x256 j = x2 (bIdx j) := by
  rw [shapeCast_self]
  refine broadcastTo_apply x2 broadcasts_S1x256_S8192x256 j (bIdx j) fun a => ?_
  match a with
  | ⟨0, _⟩ => rfl
  | ⟨1, _⟩ => rfl

/-- The product part of the body at an index: the sum over the 128 input features. -/
theorem prod_apply (x0 : Vec Ideal S8192x128 .f32) (x1 : Vec Ideal S128x256 .f32) (j : S8192x256.Idx) :
    FloatOps.matmul dot_S8192x128_S128x256_S8192x256_1_0_0_1_n_n none
        (truncf .bf16 (shapeCast S8192x128 x0 shapeCasts_S8192x128_S8192x128) bitsLt_bf16_f32 : FVec Ideal S8192x128 .bf16)
        (truncf .bf16 x1 bitsLt_bf16_f32 : FVec Ideal S128x256 .bf16) (constant S8192x256 .f32 0x00000000#32) j
      = ∑ k : Fin 128, x0 (xIdx j k) * x1 (wIdx j k) := by
  rw [Ideal.matmul_constant_zero_apply, ← Equiv.sum_comp (ValueIdx.contrEquiv1 dot_S8192x128_S128x256_S8192x256_1_0_0_1_n_n 128 rfl rfl).symm]
  refine Finset.sum_congr rfl fun k _ => ?_
  have hk := ValueIdx.contrEquiv1_symm_val dot_S8192x128_S128x256_S8192x256_1_0_0_1_n_n 128 rfl rfl k
  have el : dot_S8192x128_S128x256_S8192x256_1_0_0_1_n_n.lhsIdx j ((ValueIdx.contrEquiv1 dot_S8192x128_S128x256_S8192x256_1_0_0_1_n_n 128 rfl rfl).symm k) = xIdx j k := funext fun a => Fin.ext (by
    match a with
    | ⟨0, _⟩ => exact lhs_0 _ _
    | ⟨1, _⟩ => exact (lhs_1 _ _).trans hk)
  have er : dot_S8192x128_S128x256_S8192x256_1_0_0_1_n_n.rhsIdx j ((ValueIdx.contrEquiv1 dot_S8192x128_S128x256_S8192x256_1_0_0_1_n_n 128 rfl rfl).symm k) = wIdx j k := funext fun a => Fin.ext (by
    match a with
    | ⟨0, _⟩ => exact (rhs_0 _ _).trans hk
    | ⟨1, _⟩ => exact rhs_1 _ _)
  rw [el, er, shapeCast_self]
  rfl

/-- The body's one stored value at an index: the rectified sum of the product and the bias. -/
theorem pay_apply (x0 : Vec Ideal S8192x128 .f32) (x1 : Vec Ideal S128x256 .f32) (x2 : Vec Ideal S1x256 .f32) (j : S8192x256.Idx) :
    k0_pay1 x0 x1 x2 j = max ((∑ k : Fin 128, x0 (xIdx j k) * x1 (wIdx j k)) + x2 (bIdx j)) 0 := by
  unfold k0_pay1
  simp only [matmul]
  rw [ValueIdx.truncf_apply, ValueIdx.maximumf_apply, ValueIdx.addf_apply, ValueIdx.broadcast_apply, prod_apply, bias_apply]
  show max _ (Ideal.ofBits .f32 0x00000000#32) = _
  rw [Ideal.ofBits_zero_f32]

/-! ## The blocks as rows of the arrays -/

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point `t` is rows 8192·t … of the feature array. -/
theorem xblk_apply (c : Dev nD) (t : Fin cfg0.N) (y : S8192x128.Idx) (i : S262144x128.Idx)
    (h0 : (i 0).val = 8192 * t.val + (y 0).val) (h1 : (i 1).val = (y 1).val) :
    (iblk0 V c 0 t : Vec Ideal S8192x128 .f32) y = (V c main_v32 : S262144x128.Idx → EReal) i := by
  obtain ⟨e0, e1, -, -, -, -, -, -⟩ := idx_facts t
  unfold iblk0
  rw [View.read_apply]
  show V c main_v32 _ = V c main_v32 _
  congr 1
  funext a
  apply Fin.ext
  match a with
  | ⟨0, _⟩ => show win0_0.index t 0 * 8192 + 1 * (y 0).val = (i 0).val; rw [e0, h0]; omega
  | ⟨1, _⟩ => show win0_0.index t 1 * 128 + 1 * (y 1).val = (i 1).val; rw [e1, h1]; omega

/-- The weight window's block at every point is the whole weight. -/
theorem wblk_apply (c : Dev nD) (t : Fin cfg0.N) (y : S128x256.Idx) :
    (iblk0 V c 1 t : Vec Ideal S128x256 .f32) y = (V c main_arg1 : S128x256.Idx → EReal) y := by
  obtain ⟨-, -, e2, e3, -, -, -, -⟩ := idx_facts t
  unfold iblk0
  rw [View.read_apply]
  show V c main_arg1 _ = V c main_arg1 _
  congr 1
  funext a
  apply Fin.ext
  match a with
  | ⟨0, _⟩ => show win0_1.index t 0 * 128 + 1 * (y 0).val = (y 0).val; rw [e2]; omega
  | ⟨1, _⟩ => show win0_1.index t 1 * 256 + 1 * (y 1).val = (y 1).val; rw [e3]; omega

/-- The bias window's block at every point is the whole bias row. -/
theorem bblk_apply (c : Dev nD) (t : Fin cfg0.N) (y : S1x256.Idx) :
    (iblk0 V c 2 t : Vec Ideal S1x256 .f32) y = (V c main_v33 : S1x256.Idx → EReal) y := by
  obtain ⟨-, -, -, -, e4, e5, -, -⟩ := idx_facts t
  unfold iblk0
  rw [View.read_apply]
  show V c main_v33 _ = V c main_v33 _
  congr 1
  funext a
  apply Fin.ext
  match a with
  | ⟨0, _⟩ => show win0_2.index t 0 * 1 + 1 * (y 0).val = (y 0).val; rw [e4]; omega
  | ⟨1, _⟩ => show win0_2.index t 1 * 256 + 1 * (y 1).val = (y 1).val; rw [e5]; omega

/-! ## What each point writes back, the cover, the array after the region -/

/-- Point `t` writes back block `t` of the whole-array function `G`. -/
theorem flushed_eq (c : Dev nD) (t : Fin cfg0.N)
    (X : S262144x128.Idx → EReal) (W : S128x256.Idx → EReal) (B : S1x256.Idx → EReal) (G : S262144x256.Idx → EReal)
    (hX : (V c main_v32 : S262144x128.Idx → EReal) = X) (hW : (V c main_arg1 : S128x256.Idx → EReal) = W)
    (hB : (V c main_v33 : S1x256.Idx → EReal) = B)
    (hG : ∀ (i : S262144x256.Idx) (li : Fin 128 → S262144x128.Idx) (ri : Fin 128 → S128x256.Idx) (bi : S1x256.Idx),
      (∀ k, ((li k) 0).val = (i 0).val ∧ ((li k) 1).val = k.val) → (∀ k, ((ri k) 0).val = k.val ∧ ((ri k) 1).val = (i 1).val) →
      ((bi 0).val = 0 ∧ (bi 1).val = (i 1).val) →
      G i = max ((∑ k : Fin 128, X (li k) * W (ri k)) + B bi) 0) :
    (dat0 V c).flushed 3 t = ((cfg0.win 3).blk t).view.read (Elt Ideal) G := by
  obtain ⟨-, -, -, -, -, -, e6, e7⟩ := idx_facts t
  show (cfg0.win 3).cut (grid0.coords t) ((dat0 V c).after 3 t) = _
  rw [after0_3]
  unfold out0_3
  rw [View.canon_unit_zero hz]
  simp only [View.ld_unit_zero (S := S8192x128) hz, View.ld_unit_zero (S := S128x256) hz, View.ld_unit_zero (S := S1x256) hz]
  funext j
  show k0_pay1 (iblk0 V c 0 t) (iblk0 V c 1 t) (iblk0 V c 2 t) j = G (((cfg0.win 3).blk t).view.emb j)
  refine (pay_apply (iblk0 V c 0 t) (iblk0 V c 1 t) (iblk0 V c 2 t) j).trans ?_
  have hr : ((((cfg0.win 3).blk t).view.emb j) 0).val = 8192 * t.val + (j 0).val := by
    show win0_3.index t 0 * 8192 + 1 * (j 0).val = _; rw [e6]; omega
  have hc : ((((cfg0.win 3).blk t).view.emb j) 1).val = (j 1).val := by
    show win0_3.index t 1 * 256 + 1 * (j 1).val = _; rw [e7]; omega
  have hj0 : (j 0).val < 8192 := (j 0).isLt
  have ht : t.val < 32 := by have h := t.isLt; have e : cfg0.N = 32 := N_0; omega
  let li : Fin 128 → S262144x128.Idx := fun k a => match a with
    | ⟨0, _⟩ => ⟨8192 * t.val + (j 0).val, by show _ < 262144; omega⟩
    | ⟨1, _⟩ => ⟨k.val, k.isLt⟩
  rw [hG (((cfg0.win 3).blk t).view.emb j) li (fun k => wIdx j k) (bIdx j)
    (fun k => ⟨hr.symm, rfl⟩) (fun k => ⟨rfl, hc.symm⟩) ⟨rfl, hc.symm⟩]
  rw [bblk_apply V c t (bIdx j), hB]
  congr 2
  refine Finset.sum_congr rfl fun k _ => ?_
  rw [xblk_apply V c t (xIdx j k) (li k) rfl rfl, wblk_apply V c t (wIdx j k), hX, hW]

/-- Every index of the output array is in the block of the point that owns its row. -/
theorem cover (i : S262144x256.Idx) : ∃ t : Fin cfg0.N, (cfg0.win 3).flush t = true ∧ i ∈ ((cfg0.win 3).blk t).view.set := by
  have hi0 : (i 0).val < 262144 := (i 0).isLt
  have hi1 : (i 1).val < 256 := (i 1).isLt
  let t : Fin cfg0.N := ⟨(i 0).val / 8192, by rw [show cfg0.N = 32 from N_0]; omega⟩
  obtain ⟨-, -, -, -, -, -, e6, e7⟩ := idx_facts t
  refine ⟨t, flush0_3 t, ?_⟩
  show i ∈ ((View.whole main_v34).slice (win0_3.rect t)).set
  rw [View.set_slice_whole, Rect.mem_set_unit]
  intro a
  match a with
  | ⟨0, _⟩ =>
    show win0_3.index t 0 * 8192 ≤ (i 0).val ∧ (i 0).val < win0_3.index t 0 * 8192 + 8192
    rw [e6]; show (i 0).val / 8192 * 8192 ≤ (i 0).val ∧ (i 0).val < (i 0).val / 8192 * 8192 + 8192; omega
  | ⟨1, _⟩ =>
    show win0_3.index t 1 * 256 ≤ (i 1).val ∧ (i 1).val < win0_3.index t 1 * 256 + 256
    rw [e7]; omega

/-- The output array after the region is the rectified biased product. -/
theorem final (c : Dev nD)
    (X : S262144x128.Idx → EReal) (W : S128x256.Idx → EReal) (B : S1x256.Idx → EReal) (G : S262144x256.Idx → EReal)
    (hX : (V c main_v32 : S262144x128.Idx → EReal) = X) (hW : (V c main_arg1 : S128x256.Idx → EReal) = W)
    (hB : (V c main_v33 : S1x256.Idx → EReal) = B)
    (hG : ∀ (i : S262144x256.Idx) (li : Fin 128 → S262144x128.Idx) (ri : Fin 128 → S128x256.Idx) (bi : S1x256.Idx),
      (∀ k, ((li k) 0).val = (i 0).val ∧ ((li k) 1).val = k.val) → (∀ k, ((ri k) 0).val = k.val ∧ ((ri k) 1).val = (i 1).val) →
      ((bi 0).val = 0 ∧ (bi 1).val = (i 1).val) →
      G i = max ((∑ k : Fin 128, X (li k) * W (ri k)) + B bi) 0) :
    ((dat0 V c).arrAt 3 cfg0.N : S262144x256.Idx → EReal) = G :=
  (dat0 V c).arrAt_eq_of_cover 3 G (fun t _ => flushed_eq V c t X W B G hX hW hB hG) cover

end Cert.GraphConv.Layer1

end
-- ==== Proof.Region1.lean ====
/-
  Second projection layer, kernel side. The grid has 32 points; point t loads rows 8192·t … 8192·t + 8191 of the
  hidden array H (262144 × 256) and the whole weight W (256 × 128) and stores the product's rows 8192·t … of the
  output. At the extended reals the product into a zero accumulator is the plain sum over the contracted axis, and a
  change of float format is the identity, so the block point t writes back is block t of the whole-array function
  G(r, q) = ∑ₖ H(r, k) · W(k, q); the 32 blocks tile the array, hence the array ends at G.
-/
import proofs.«167016_j24756191494756_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.GraphConv.Layer2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The product at an index -/

theorem lhs_0 (j : S8192x128.Idx) (q : dot_S8192x256_S256x128_S8192x128_1_0_0_1_n_n.contr.Idx) :
    (dot_S8192x256_S256x128_S8192x128_1_0_0_1_n_n.lhsIdx j q 0).val = (j 0).val := by
  unfold DotDims.lhsIdx
  rw [dif_neg (show ¬(0 : Fin S8192x256.rank) ∈ dot_S8192x256_S256x128_S8192x128_1_0_0_1_n_n.lhsBatch by decide), dif_pos (show (0 : Fin S8192x256.rank) ∈ dot_S8192x256_S256x128_S8192x128_1_0_0_1_n_n.lhsNonContracting by decide)]
  rfl
theorem lhs_1 (j : S8192x128.Idx) (q : dot_S8192x256_S256x128_S8192x128_1_0_0_1_n_n.contr.Idx) :
    (dot_S8192x256_S256x128_S8192x128_1_0_0_1_n_n.lhsIdx j q 1).val = (q ⟨0, by decide⟩).val :=
  dot_S8192x256_S256x128_S8192x128_1_0_0_1_n_n.lhsIdx_val_of_single rfl j q
theorem rhs_0 (j : S8192x128.Idx) (q : dot_S8192x256_S256x128_S8192x128_1_0_0_1_n_n.contr.Idx) :
    (dot_S8192x256_S256x128_S8192x128_1_0_0_1_n_n.rhsIdx j q 0).val = (q ⟨0, by decide⟩).val :=
  dot_S8192x256_S256x128_S8192x128_1_0_0_1_n_n.rhsIdx_val_of_single rfl j q
theorem rhs_1 (j : S8192x128.Idx) (q : dot_S8192x256_S256x128_S8192x128_1_0_0_1_n_n.contr.Idx) :
    (dot_S8192x256_S256x128_S8192x128_1_0_0_1_n_n.rhsIdx j q 1).val = (j 1).val := by
  unfold DotDims.rhsIdx
  rw [dif_neg (show ¬(1 : Fin S256x128.rank) ∈ dot_S8192x256_S256x128_S8192x128_1_0_0_1_n_n.rhsBatch by decide), dif_pos (show (1 : Fin S256x128.rank) ∈ dot_S8192x256_S256x128_S8192x128_1_0_0_1_n_n.rhsNonContracting by decide)]
  rfl

/-- Row `j 0`, column `k` of the hidden block. -/
abbrev hIdx (j : S8192x128.Idx) (k : Fin 256) : S8192x256.Idx := fun a => match a with
  | ⟨0, _⟩ => ⟨(j 0).val, (j 0).isLt⟩
  | ⟨1, _⟩ => ⟨k.val, k.isLt⟩
/-- Row `k`, column `j 1` of the weight. -/
abbrev wIdx (j : S8192x128.Idx) (k : Fin 256) : S256x128.Idx := fun a => match a with
  | ⟨0, _⟩ => ⟨k.val, k.isLt⟩
  | ⟨1, _⟩ => ⟨(j 1).val, (j 1).isLt⟩

/-- The body's one stored value at an index: the sum over the 256 hidden features. -/
theorem pay_apply (x0 : Vec Ideal S8192x256 .bf16) (x1 : Vec Ideal S256x128 .f32) (j : S8192x128.Idx) :
    k1_pay1 x0 x1 j = ∑ k : Fin 256, x0 (hIdx j k) * x1 (wIdx j k) := by
  unfold k1_pay1
  simp only [matmul]
  rw [Ideal.matmul_constant_zero_apply, ← Equiv.sum_comp (ValueIdx.contrEquiv1 dot_S8192x256_S256x128_S8192x128_1_0_0_1_n_n 256 rfl rfl).symm]
  refine Finset.sum_congr rfl fun k _ => ?_
  have hk := ValueIdx.contrEquiv1_symm_val dot_S8192x256_S256x128_S8192x128_1_0_0_1_n_n 256 rfl rfl k
  have el : dot_S8192x256_S256x128_S8192x128_1_0_0_1_n_n.lhsIdx j ((ValueIdx.contrEquiv1 dot_S8192x256_S256x128_S8192x128_1_0_0_1_n_n 256 rfl rfl).symm k) = hIdx j k := funext fun a => Fin.ext (by
    match a with
    | ⟨0, _⟩ => exact lhs_0 _ _
    | ⟨1, _⟩ => exact (lhs_1 _ _).trans hk)
  have er : dot_S8192x256_S256x128_S8192x128_1_0_0_1_n_n.rhsIdx j ((ValueIdx.contrEquiv1 dot_S8192x256_S256x128_S8192x128_1_0_0_1_n_n 256 rfl rfl).symm k) = wIdx j k := funext fun a => Fin.ext (by
    match a with
    | ⟨0, _⟩ => exact (rhs_0 _ _).trans hk
    | ⟨1, _⟩ => exact rhs_1 _ _)
  rw [el, er, shapeCast_self]
  rfl

/-! ## The blocks as rows of the arrays -/

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The hidden window's block at point `t` is rows 8192·t … of the hidden array. -/
theorem hblk_apply (c : Dev nD) (t : Fin cfg1.N) (y : S8192x256.Idx) (i : S262144x256.Idx)
    (h0 : (i 0).val = 8192 * t.val + (y 0).val) (h1 : (i 1).val = (y 1).val) :
    (iblk1 V c 0 t : Vec Ideal S8192x256 .bf16) y = (V c main_v34 : S262144x256.Idx → EReal) i := by
  obtain ⟨e0, e1, -, -, -, -⟩ := idx_facts t
  unfold iblk1
  rw [View.read_apply]
  show V c main_v34 _ = V c main_v34 _
  congr 1
  funext a
  apply Fin.ext
  match a with
  | ⟨0, _⟩ => show win1_0.index t 0 * 8192 + 1 * (y 0).val = (i 0).val; rw [e0, h0]; omega
  | ⟨1, _⟩ => show win1_0.index t 1 * 256 + 1 * (y 1).val = (i 1).val; rw [e1, h1]; omega

/-- The weight window's block at every point is the whole weight. -/
theorem wblk_apply (c : Dev nD) (t : Fin cfg1.N) (y : S256x128.Idx) :
    (iblk1 V c 1 t : Vec Ideal S256x128 .f32) y = (V c main_arg3 : S256x128.Idx → EReal) y := by
  obtain ⟨-, -, e2, e3, -, -⟩ := idx_facts t
  unfold iblk1
  rw [View.read_apply]
  show V c main_arg3 _ = V c main_arg3 _
  congr 1
  funext a
  apply Fin.ext
  match a with
  | ⟨0, _⟩ => show win1_1.index t 0 * 256 + 1 * (y 0).val = (y 0).val; rw [e2]; omega
  | ⟨1, _⟩ => show win1_1.index t 1 * 128 + 1 * (y 1).val = (y 1).val; rw [e3]; omega

/-! ## What each point writes back, the cover, the array after the region -/

/-- Point `t` writes back block `t` of the whole-array product `G`. -/
theorem flushed_eq (c : Dev nD) (t : Fin cfg1.N)
    (H : S262144x256.Idx → EReal) (W : S256x128.Idx → EReal) (G : S262144x128.Idx → EReal)
    (hH : (V c main_v34 : S262144x256.Idx → EReal) = H) (hW : (V c main_arg3 : S256x128.Idx → EReal) = W)
    (hG : ∀ (i : S262144x128.Idx) (li : Fin 256 → S262144x256.Idx) (ri : Fin 256 → S256x128.Idx),
      (∀ k, ((li k) 0).val = (i 0).val ∧ ((li k) 1).val = k.val) → (∀ k, ((ri k) 0).val = k.val ∧ ((ri k) 1).val = (i 1).val) →
      G i = ∑ k : Fin 256, H (li k) * W (ri k)) :
    (dat1 V c).flushed 2 t = ((cfg1.win 2).blk t).view.read (Elt Ideal) G := by
  obtain ⟨-, -, -, -, e4, e5⟩ := idx_facts t
  show (cfg1.win 2).cut (grid1.coords t) ((dat1 V c).after 2 t) = _
  rw [after1_2]
  unfold out1_2
  rw [View.canon_unit_zero hz]
  simp only [View.ld_unit_zero (S := S8192x256) hz, View.ld_unit_zero (S := S256x128) hz]
  funext j
  show k1_pay1 (iblk1 V c 0 t) (iblk1 V c 1 t) j = G (((cfg1.win 2).blk t).view.emb j)
  refine (pay_apply (iblk1 V c 0 t) (iblk1 V c 1 t) j).trans ?_
  have hr : ((((cfg1.win 2).blk t).view.emb j) 0).val = 8192 * t.val + (j 0).val := by
    show win1_2.index t 0 * 8192 + 1 * (j 0).val = _; rw [e4]; omega
  have hc : ((((cfg1.win 2).blk t).view.emb j) 1).val = (j 1).val := by
    show win1_2.index t 1 * 128 + 1 * (j 1).val = _; rw [e5]; omega
  have hj0 : (j 0).val < 8192 := (j 0).isLt
  have ht : t.val < 32 := by have h := t.isLt; have e : cfg1.N = 32 := N_1; omega
  let li : Fin 256 → S262144x256.Idx := fun k a => match a with
    | ⟨0, _⟩ => ⟨8192 * t.val + (j 0).val, by show _ < 262144; omega⟩
    | ⟨1, _⟩ => ⟨k.val, k.isLt⟩
  rw [hG (((cfg1.win 2).blk t).view.emb j) li (fun k => wIdx j k)
    (fun k => ⟨hr.symm, rfl⟩) (fun k => ⟨rfl, hc.symm⟩)]
  refine Finset.sum_congr rfl fun k _ => ?_
  rw [hblk_apply V c t (hIdx j k) (li k) rfl rfl, wblk_apply V c t (wIdx j k), hH, hW]

/-- Every index of the output array is in the block of the point that owns its row. -/
theorem cover (i : S262144x128.Idx) : ∃ t : Fin cfg1.N, (cfg1.win 2).flush t = true ∧ i ∈ ((cfg1.win 2).blk t).view.set := by
  have hi0 : (i 0).val < 262144 := (i 0).isLt
  have hi1 : (i 1).val < 128 := (i 1).isLt
  let t : Fin cfg1.N := ⟨(i 0).val / 8192, by rw [show cfg1.N = 32 from N_1]; omega⟩
  obtain ⟨-, -, -, -, e4, e5⟩ := idx_facts t
  refine ⟨t, flush1_2 t, ?_⟩
  show i ∈ ((View.whole main_v35).slice (win1_2.rect t)).set
  rw [View.set_slice_whole, Rect.mem_set_unit]
  intro a
  match a with
  | ⟨0, _⟩ =>
    show win1_2.index t 0 * 8192 ≤ (i 0).val ∧ (i 0).val < win1_2.index t 0 * 8192 + 8192
    rw [e4]; show (i 0).val / 8192 * 8192 ≤ (i 0).val ∧ (i 0).val < (i 0).val / 8192 * 8192 + 8192; omega
  | ⟨1, _⟩ =>
    show win1_2.index t 1 * 128 ≤ (i 1).val ∧ (i 1).val < win1_2.index t 1 * 128 + 128
    rw [e5]; omega

/-- The output array after the region is the whole-array product. -/
theorem final (c : Dev nD)
    (H : S262144x256.Idx → EReal) (W : S256x128.Idx → EReal) (G : S262144x128.Idx → EReal)
    (hH : (V c main_v34 : S262144x256.Idx → EReal) = H) (hW : (V c main_arg3 : S256x128.Idx → EReal) = W)
    (hG : ∀ (i : S262144x128.Idx) (li : Fin 256 → S262144x256.Idx) (ri : Fin 256 → S256x128.Idx),
      (∀ k, ((li k) 0).val = (i 0).val ∧ ((li k) 1).val = k.val) → (∀ k, ((ri k) 0).val = k.val ∧ ((ri k) 1).val = (i 1).val) →
      G i = ∑ k : Fin 256, H (li k) * W (ri k)) :
    (dat1 V c).arrAt 2 cfg1.N = G :=
  (dat1 V c).arrAt_eq_of_cover 2 G (fun t _ => flushed_eq V c t H W G hH hW hG) cover

end Cert.GraphConv.Layer2

end
-- ==== Proof.Region2.lean ====
/-
  Mean pooling and the classifier, kernel side. The grid has 16 points; point t loads graphs 128·t … 128·t + 127:
  their node features, a block of Z (2048 × 128 × 128), and their second feature rows, a block of O (2048 × 128),
  together with the whole of the two weights Wa, Wb (128 × 6) and the bias B (1 × 6), and stores rows 128·t … of the
  output (2048 × 6). The body sums a graph's 128 nodes (the middle axis) and divides by the constant 128, which is the
  mean over the nodes; it multiplies the means by Wa and the second rows by Wb, adds the two products and adds the bias
  row to every row. At the extended reals a sum over one axis into the neutral accumulator is the plain sum, a product
  into a zero accumulator is the plain sum over the contracted axis, and a change of float format is the identity, so
  the block point t writes back is block t of the whole-array function
  G(r, q) = (∑ₖ (∑ₗ Z(r, l, k)) / 128 · Wa(k, q)) + (∑ₖ O(r, k) · Wb(k, q)) + B(0, q);
  the 16 blocks tile the array, hence the array ends at G.
-/
import proofs.«167016_j24756191494756_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.GraphConv.Head

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The indices the body reads at an output index -/

/-- Row `j 0`, column `k` of a 128 × 128 block. -/
abbrev aIdx (j : S128x6.Idx) (k : Fin 128) : S128x128.Idx := fun a => match a with
  | ⟨0, _⟩ => ⟨(j 0).val, (j 0).isLt⟩
  | ⟨1, _⟩ => ⟨k.val, k.isLt⟩
/-- Row `k`, column `j 1` of a weight. -/
abbrev wIdx (j : S128x6.Idx) (k : Fin 128) : S128x6.Idx := fun a => match a with
  | ⟨0, _⟩ => ⟨k.val, k.isLt⟩
  | ⟨1, _⟩ => ⟨(j 1).val, (j 1).isLt⟩
/-- Graph `y 0`, node `l`, feature `y 1` of the node-feature block. -/
abbrev nIdx (y : S128x128.Idx) (l : Fin 128) : S128x128x128.Idx := fun a => match a with
  | ⟨0, _⟩ => ⟨(y 0).val, (y 0).isLt⟩
  | ⟨1, _⟩ => ⟨l.val, l.isLt⟩
  | ⟨2, _⟩ => ⟨(y 1).val, (y 1).isLt⟩
/-- Graph `j 0`, node `l`, feature `k` of the node-feature block. -/
abbrev zIdx (j : S128x6.Idx) (k l : Fin 128) : S128x128x128.Idx := fun a => match a with
  | ⟨0, _⟩ => ⟨(j 0).val, (j 0).isLt⟩
  | ⟨1, _⟩ => ⟨l.val, l.isLt⟩
  | ⟨2, _⟩ => ⟨k.val, k.isLt⟩
/-- The bias row at column `j 1`. -/
abbrev bIdx (j : S128x6.Idx) : S1x6.Idx := fun a => match a with
  | ⟨0, _⟩ => ⟨0, Nat.one_pos⟩
  | ⟨1, _⟩ => ⟨(j 1).val, (j 1).isLt⟩

/-! ## A product at an index -/

theorem lhs_0 (j : S128x6.Idx) (q : dot_S128x128_S128x6_S128x6_1_0_0_1_n_n.contr.Idx) :
    (dot_S128x128_S128x6_S128x6_1_0_0_1_n_n.lhsIdx j q 0).val = (j 0).val := by
  unfold DotDims.lhsIdx
  rw [dif_neg (show ¬(0 : Fin S128x128.rank) ∈ dot_S128x128_S128x6_S128x6_1_0_0_1_n_n.lhsBatch by decide), dif_pos (show (0 : Fin S128x128.rank) ∈ dot_S128x128_S128x6_S128x6_1_0_0_1_n_n.lhsNonContracting by decide)]
  rfl
theorem lhs_1 (j : S128x6.Idx) (q : dot_S128x128_S128x6_S128x6_1_0_0_1_n_n.contr.Idx) :
    (dot_S128x128_S128x6_S128x6_1_0_0_1_n_n.lhsIdx j q 1).val = (q ⟨0, by decide⟩).val :=
  dot_S128x128_S128x6_S128x6_1_0_0_1_n_n.lhsIdx_val_of_single rfl j q
theorem rhs_0 (j : S128x6.Idx) (q : dot_S128x128_S128x6_S128x6_1_0_0_1_n_n.contr.Idx) :
    (dot_S128x128_S128x6_S128x6_1_0_0_1_n_n.rhsIdx j q 0).val = (q ⟨0, by decide⟩).val :=
  dot_S128x128_S128x6_S128x6_1_0_0_1_n_n.rhsIdx_val_of_single rfl j q
theorem rhs_1 (j : S128x6.Idx) (q : dot_S128x128_S128x6_S128x6_1_0_0_1_n_n.contr.Idx) :
    (dot_S128x128_S128x6_S128x6_1_0_0_1_n_n.rhsIdx j q 1).val = (j 1).val := by
  unfold DotDims.rhsIdx
  rw [dif_neg (show ¬(1 : Fin S128x6.rank) ∈ dot_S128x128_S128x6_S128x6_1_0_0_1_n_n.rhsBatch by decide), dif_pos (show (1 : Fin S128x6.rank) ∈ dot_S128x128_S128x6_S128x6_1_0_0_1_n_n.rhsNonContracting by decide)]
  rfl

/-- A 128 × 128 by 128 × 6 product into the zero accumulator, at an index: the sum over the 128 contracted features. -/
theorem mm_apply (lhs : FVec Ideal S128x128 .bf16) (rhs : FVec Ideal S128x6 .bf16) (j : S128x6.Idx) :
    FloatOps.matmul dot_S128x128_S128x6_S128x6_1_0_0_1_n_n none lhs rhs (constant (F := Ideal) S128x6 .f32 0x00000000#32) j
      = ∑ k : Fin 128, lhs (aIdx j k) * rhs (wIdx j k) := by
  rw [Ideal.matmul_constant_zero_apply, ← Equiv.sum_comp (ValueIdx.contrEquiv1 dot_S128x128_S128x6_S128x6_1_0_0_1_n_n 128 rfl rfl).symm]
  refine Finset.sum_congr rfl fun k _ => ?_
  have hk := ValueIdx.contrEquiv1_symm_val dot_S128x128_S128x6_S128x6_1_0_0_1_n_n 128 rfl rfl k
  have el : dot_S128x128_S128x6_S128x6_1_0_0_1_n_n.lhsIdx j ((ValueIdx.contrEquiv1 dot_S128x128_S128x6_S128x6_1_0_0_1_n_n 128 rfl rfl).symm k) = aIdx j k := funext fun a => Fin.ext (by
    match a with
    | ⟨0, _⟩ => exact lhs_0 _ _
    | ⟨1, _⟩ => exact (lhs_1 _ _).trans hk)
  have er : dot_S128x128_S128x6_S128x6_1_0_0_1_n_n.rhsIdx j ((ValueIdx.contrEquiv1 dot_S128x128_S128x6_S128x6_1_0_0_1_n_n 128 rfl rfl).symm k) = wIdx j k := funext fun a => Fin.ext (by
    match a with
    | ⟨0, _⟩ => exact (rhs_0 _ _).trans hk
    | ⟨1, _⟩ => exact rhs_1 _ _)
  rw [el, er]

/-! ## The sum over a graph's nodes at an index -/

/-- The sum over the middle axis into the neutral accumulator, at (graph, feature): the sum over the 128 nodes. -/
theorem red_apply (v : FVec Ideal S128x128x128 .f32) (h : S128x128x128.Reduces [1] S128x128) (hφ : FKind.Formats .f32)
    (hacc : (0x00000000#32 : BitVec (FTy.bits .f32)) = FKind.add.neutral .f32 hφ) (y : S128x128.Idx) :
    multiReduction (F := Ideal) .add [1] S128x128 v 0x00000000#32 h hφ hacc y = ∑ l : Fin 128, v (nIdx y l) := by
  refine (Ideal.multiReduction_add_single v 0x00000000#32 h hφ hacc y).trans ?_
  show ∑ l : Fin 128, v (h.lift y l) = _
  refine Finset.sum_congr rfl fun l _ => ?_
  congr 1
  funext a
  apply Fin.ext
  match a with
  | ⟨0, _⟩ => rfl
  | ⟨1, _⟩ => rfl
  | ⟨2, _⟩ => rfl

/-! ## The bias row over the block's rows -/

theorem bias_apply (x : Vec Ideal S1x6 .f32) (h : S1x6.Broadcasts S128x6) (j : S128x6.Idx) :
    broadcastTo S128x6 x h j = x (bIdx j) := by
  refine broadcastTo_apply x h j (bIdx j) fun a => ?_
  match a with
  | ⟨0, _⟩ => rfl
  | ⟨1, _⟩ => rfl

/-! ## The body's one stored value at an index -/

theorem pay_apply (x0 : Vec Ideal S128x128x128 .f32) (x1 : Vec Ideal S128x128 .f32) (x2 x3 : Vec Ideal S128x6 .f32)
    (x4 : Vec Ideal S1x6 .f32) (j : S128x6.Idx) :
    k2_pay1 x0 x1 x2 x3 x4 j
      = ((∑ k : Fin 128, Ideal.div (∑ l : Fin 128, x0 (zIdx j k l)) (Ideal.ofBits .f32 0x43000000#32) * x2 (wIdx j k))
          + (∑ k : Fin 128, x1 (aIdx j k) * x3 (wIdx j k))) + x4 (bIdx j) := by
  unfold k2_pay1
  simp only [matmul, shapeCast_self]
  refine congrArg₂ (· + ·) (congrArg₂ (· + ·) ?_ ?_) (bias_apply x4 _ j)
  · refine (mm_apply _ _ j).trans (Finset.sum_congr rfl fun k _ => ?_)
    refine congrArg₂ (· * ·) (congrArg (fun s => Ideal.div s (Ideal.ofBits .f32 0x43000000#32)) ?_) rfl
    refine (red_apply x0 _ _ _ (aIdx j k)).trans (Finset.sum_congr rfl fun l _ => congrArg x0 (funext fun a => ?_))
    match a with
    | ⟨0, _⟩ => rfl
    | ⟨1, _⟩ => rfl
    | ⟨2, _⟩ => rfl
  · exact mm_apply _ _ j

/-! ## The blocks as rows of the arrays -/

theorem idx_facts : ∀ t : Fin cfg2.N,
    win2_0.index t (0 : Fin 3) = t.val ∧ win2_0.index t (1 : Fin 3) = 0 ∧ win2_0.index t (2 : Fin 3) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The node-feature window's block at point `t` is graphs 128·t … of the node-feature array. -/
theorem zblk_apply (c : Dev nD) (t : Fin cfg2.N) (y : S128x128x128.Idx) (i : S2048x128x128.Idx)
    (h0 : (i 0).val = 128 * t.val + (y 0).val) (h1 : (i 1).val = (y 1).val) (h2 : (i 2).val = (y 2).val) :
    (iblk2 V c 0 t : Vec Ideal S128x128x128 .f32) y = (V c main_v55 : S2048x128x128.Idx → EReal) i := by
  obtain ⟨e0, e1, e2, -, -, -, -, -, -, -, -, -, -⟩ := idx_facts t
  unfold iblk2
  rw [View.read_apply]
  show V c main_v55 _ = V c main_v55 _
  congr 1
  funext a
  apply Fin.ext
  match a with
  | ⟨0, _⟩ => show win2_0.index t 0 * 128 + 1 * (y 0).val = (i 0).val; rw [e0, h0]; omega
  | ⟨1, _⟩ => show win2_0.index t 1 * 128 + 1 * (y 1).val = (i 1).val; rw [e1, h1]; omega
  | ⟨2, _⟩ => show win2_0.index t 2 * 128 + 1 * (y 2).val = (i 2).val; rw [e2, h2]; omega

/-- The second-feature window's block at point `t` is rows 128·t … of the second-feature array. -/
theorem oblk_apply (c : Dev nD) (t : Fin cfg2.N) (y : S128x128.Idx) (i : S2048x128.Idx)
    (h0 : (i 0).val = 128 * t.val + (y 0).val) (h1 : (i 1).val = (y 1).val) :
    (iblk2 V c 1 t : Vec Ideal S128x128 .f32) y = (V c main_v62 : S2048x128.Idx → EReal) i := by
  obtain ⟨-, -, -, e0, e1, -, -, -, -, -, -, -, -⟩ := idx_facts t
  unfold iblk2
  rw [View.read_apply]
  show V c main_v62 _ = V c main_v62 _
  congr 1
  funext a
  apply Fin.ext
  match a with
  | ⟨0, _⟩ => show win2_1.index t 0 * 128 + 1 * (y 0).val = (i 0).val; rw [e0, h0]; omega
  | ⟨1, _⟩ => show win2_1.index t 1 * 128 + 1 * (y 1).val = (i 1).val; rw [e1, h1]; omega

/-- The first weight's window's block at every point is the whole weight. -/
theorem wablk_apply (c : Dev nD) (t : Fin cfg2.N) (y : S128x6.Idx) :
    (iblk2 V c 2 t : Vec Ideal S128x6 .f32) y = (V c main_v63 : S128x6.Idx → EReal) y := by
  obtain ⟨-, -, -, -, -, e0, e1, -, -, -, -, -, -⟩ := idx_facts t
  unfold iblk2
  rw [View.read_apply]
  show V c main_v63 _ = V c main_v63 _
  congr 1
  funext a
  apply Fin.ext
  match a with
  | ⟨0, _⟩ => show win2_2.index t 0 * 128 + 1 * (y 0).val = (y 0).val; rw [e0]; omega
  | ⟨1, _⟩ => show win2_2.index t 1 * 6 + 1 * (y 1).val = (y 1).val; rw [e1]; omega

/-- The second weight's window's block at every point is the whole weight. -/
theorem wbblk_apply (c : Dev nD) (t : Fin cfg2.N) (y : S128x6.Idx) :
    (iblk2 V c 3 t : Vec Ideal S128x6 .f32) y = (V c main_v64 : S128x6.Idx → EReal) y := by
  obtain ⟨-, -, -, -, -, -, -, e0, e1, -, -, -, -⟩ := idx_facts t
  unfold iblk2
  rw [View.read_apply]
  show V c main_v64 _ = V c main_v64 _
  congr 1
  funext a
  apply Fin.ext
  match a with
  | ⟨0, _⟩ => show win2_3.index t 0 * 128 + 1 * (y 0).val = (y 0).val; rw [e0]; omega
  | ⟨1, _⟩ => show win2_3.index t 1 * 6 + 1 * (y 1).val = (y 1).val; rw [e1]; omega

/-- The bias window's block at every point is the whole bias row. -/
theorem bblk_apply (c : Dev nD) (t : Fin cfg2.N) (y : S1x6.Idx) :
    (iblk2 V c 4 t : Vec Ideal S1x6 .f32) y = (V c main_v65 : S1x6.Idx → EReal) y := by
  obtain ⟨-, -, -, -, -, -, -, -, -, e0, e1, -, -⟩ := idx_facts t
  unfold iblk2
  rw [View.read_apply]
  show V c main_v65 _ = V c main_v65 _
  congr 1
  funext a
  apply Fin.ext
  match a with
  | ⟨0, _⟩ => show win2_4.index t 0 * 1 + 1 * (y 0).val = (y 0).val; rw [e0]; omega
  | ⟨1, _⟩ => show win2_4.index t 1 * 6 + 1 * (y 1).val = (y 1).val; rw [e1]; omega

/-! ## What each point writes back, the cover, the array after the region -/

/-- Point `t` writes back block `t` of the whole-array function `G`. -/
theorem flushed_eq (c : Dev nD) (t : Fin cfg2.N)
    (Z : S2048x128x128.Idx → EReal) (O : S2048x128.Idx → EReal) (Wa Wb : S128x6.Idx → EReal) (B : S1x6.Idx → EReal) (G : S2048x6.Idx → EReal)
    (hZ : (V c main_v55 : S2048x128x128.Idx → EReal) = Z) (hO : (V c main_v62 : S2048x128.Idx → EReal) = O)
    (hWa : (V c main_v63 : S128x6.Idx → EReal) = Wa) (hWb : (V c main_v64 : S128x6.Idx → EReal) = Wb)
    (hB : (V c main_v65 : S1x6.Idx → EReal) = B)
    (hG : ∀ (i : S2048x6.Idx) (zi : Fin 128 → Fin 128 → S2048x128x128.Idx) (oi : Fin 128 → S2048x128.Idx) (wi : Fin 128 → S128x6.Idx) (bi : S1x6.Idx),
      (∀ k l, ((zi k l) 0).val = (i 0).val ∧ ((zi k l) 1).val = l.val ∧ ((zi k l) 2).val = k.val) →
      (∀ k, ((oi k) 0).val = (i 0).val ∧ ((oi k) 1).val = k.val) →
      (∀ k, ((wi k) 0).val = k.val ∧ ((wi k) 1).val = (i 1).val) →
      ((bi 0).val = 0 ∧ (bi 1).val = (i 1).val) →
      G i = ((∑ k : Fin 128, Ideal.div (∑ l : Fin 128, Z (zi k l)) (Ideal.ofBits .f32 0x43000000#32) * Wa (wi k))
              + (∑ k : Fin 128, O (oi k) * Wb (wi k))) + B bi) :
    (dat2 V c).flushed 5 t = ((cfg2.win 5).blk t).view.read (Elt Ideal) G := by
  obtain ⟨-, -, -, -, -, -, -, -, -, -, -, e4, e5⟩ := idx_facts t
  show (cfg2.win 5).cut (grid2.coords t) ((dat2 V c).after 5 t) = _
  rw [after2_5]
  unfold out2_5
  rw [View.canon_unit_zero hz2]
  simp only [View.ld_unit_zero (S := S128x128x128) hz3, View.ld_unit_zero (S := S128x128) hz2,
    View.ld_unit_zero (S := S128x6) hz2, View.ld_unit_zero (S := S1x6) hz2]
  funext j
  show k2_pay1 (iblk2 V c 0 t) (iblk2 V c 1 t) (iblk2 V c 2 t) (iblk2 V c 3 t) (iblk2 V c 4 t) j = G (((cfg2.win 5).blk t).view.emb j)
  refine (pay_apply (iblk2 V c 0 t) (iblk2 V c 1 t) (iblk2 V c 2 t) (iblk2 V c 3 t) (iblk2 V c 4 t) j).trans ?_
  have hr : ((((cfg2.win 5).blk t).view.emb j) 0).val = 128 * t.val + (j 0).val := by
    show win2_5.index t 0 * 128 + 1 * (j 0).val = _; rw [e4]; omega
  have hc : ((((cfg2.win 5).blk t).view.emb j) 1).val = (j 1).val := by
    show win2_5.index t 1 * 6 + 1 * (j 1).val = _; rw [e5]; omega
  have hj0 : (j 0).val < 128 := (j 0).isLt
  have ht : t.val < 16 := by have h := t.isLt; have e : cfg2.N = 16 := N_2; omega
  let zi : Fin 128 → Fin 128 → S2048x128x128.Idx := fun k l a => match a with
    | ⟨0, _⟩ => ⟨128 * t.val + (j 0).val, by show _ < 2048; omega⟩
    | ⟨1, _⟩ => ⟨l.val, l.isLt⟩
    | ⟨2, _⟩ => ⟨k.val, k.isLt⟩
  let oi : Fin 128 → S2048x128.Idx := fun k a => match a with
    | ⟨0, _⟩ => ⟨128 * t.val + (j 0).val, by show _ < 2048; omega⟩
    | ⟨1, _⟩ => ⟨k.val, k.isLt⟩
  rw [hG (((cfg2.win 5).blk t).view.emb j) zi oi (fun k => wIdx j k) (bIdx j)
    (fun k l => ⟨hr.symm, rfl, rfl⟩) (fun k => ⟨hr.symm, rfl⟩) (fun k => ⟨rfl, hc.symm⟩) ⟨rfl, hc.symm⟩]
  refine congrArg₂ (· + ·) (congrArg₂ (· + ·) (Finset.sum_congr rfl fun k _ => ?_) (Finset.sum_congr rfl fun k _ => ?_)) ?_
  · refine congrArg₂ (· * ·) (congrArg (fun s => Ideal.div s (Ideal.ofBits .f32 0x43000000#32)) (Finset.sum_congr rfl fun l _ => ?_)) ?_
    · rw [zblk_apply V c t (zIdx j k l) (zi k l) rfl rfl rfl, hZ]
    · rw [wablk_apply V c t (wIdx j k), hWa]
  · rw [oblk_apply V c t (aIdx j k) (oi k) rfl rfl, wbblk_apply V c t (wIdx j k), hO, hWb]
  · rw [bblk_apply V c t (bIdx j), hB]

/-- Every index of the output array is in the block of the point that owns its row. -/
theorem cover (i : S2048x6.Idx) : ∃ t : Fin cfg2.N, (cfg2.win 5).flush t = true ∧ i ∈ ((cfg2.win 5).blk t).view.set := by
  have hi0 : (i 0).val < 2048 := (i 0).isLt
  have hi1 : (i 1).val < 6 := (i 1).isLt
  let t : Fin cfg2.N := ⟨(i 0).val / 128, by rw [show cfg2.N = 16 from N_2]; omega⟩
  obtain ⟨-, -, -, -, -, -, -, -, -, -, -, e4, e5⟩ := idx_facts t
  refine ⟨t, flush2_5 t, ?_⟩
  show i ∈ ((View.whole main_v66).slice (win2_5.rect t)).set
  rw [View.set_slice_whole, Rect.mem_set_unit]
  intro a
  match a with
  | ⟨0, _⟩ =>
    show win2_5.index t 0 * 128 ≤ (i 0).val ∧ (i 0).val < win2_5.index t 0 * 128 + 128
    rw [e4]; show (i 0).val / 128 * 128 ≤ (i 0).val ∧ (i 0).val < (i 0).val / 128 * 128 + 128; omega
  | ⟨1, _⟩ =>
    show win2_5.index t 1 * 6 ≤ (i 1).val ∧ (i 1).val < win2_5.index t 1 * 6 + 6
    rw [e5]; omega

/-- The output array after the region is the whole-array function `G`. -/
theorem final (c : Dev nD)
    (Z : S2048x128x128.Idx → EReal) (O : S2048x128.Idx → EReal) (Wa Wb : S128x6.Idx → EReal) (B : S1x6.Idx → EReal) (G : S2048x6.Idx → EReal)
    (hZ : (V c main_v55 : S2048x128x128.Idx → EReal) = Z) (hO : (V c main_v62 : S2048x128.Idx → EReal) = O)
    (hWa : (V c main_v63 : S128x6.Idx → EReal) = Wa) (hWb : (V c main_v64 : S128x6.Idx → EReal) = Wb)
    (hB : (V c main_v65 : S1x6.Idx → EReal) = B)
    (hG : ∀ (i : S2048x6.Idx) (zi : Fin 128 → Fin 128 → S2048x128x128.Idx) (oi : Fin 128 → S2048x128.Idx) (wi : Fin 128 → S128x6.Idx) (bi : S1x6.Idx),
      (∀ k l, ((zi k l) 0).val = (i 0).val ∧ ((zi k l) 1).val = l.val ∧ ((zi k l) 2).val = k.val) →
      (∀ k, ((oi k) 0).val = (i 0).val ∧ ((oi k) 1).val = k.val) →
      (∀ k, ((wi k) 0).val = k.val ∧ ((wi k) 1).val = (i 1).val) →
      ((bi 0).val = 0 ∧ (bi 1).val = (i 1).val) →
      G i = ((∑ k : Fin 128, Ideal.div (∑ l : Fin 128, Z (zi k l)) (Ideal.ofBits .f32 0x43000000#32) * Wa (wi k))
              + (∑ k : Fin 128, O (oi k) * Wb (wi k))) + B bi) :
    ((dat2 V c).arrAt 5 cfg2.N : S2048x6.Idx → EReal) = G :=
  (dat2 V c).arrAt_eq_of_cover 5 G (fun t _ => flushed_eq V c t Z O Wa Wb B G hZ hO hWa hWb hB hG) cover

end Cert.GraphConv.Head

end
-- ==== Proof.Walk.lean ====
/-
  The host side of the kernel's program, read as values. Between the launch and each of the three kernel regions the
  program runs plain tensor operations; this module reads, at each region's entry, what the buffers the region's windows
  stage hold, as the same stage functions of the eleven arguments that describe the reference program: the normalised
  aggregate that feeds the first projection, the degree normalisers, the bias rows, the re-laid second aggregate, the
  gathered organism embeddings and the two halves of the classifier weight. Buffers a region does not write keep what
  they held at its entry.
-/
import proofs.«167016_j24756191494756_1_alg».proof.Proof.Gen.KernelIdeal.Frame
import proofs.«167016_j24756191494756_1_alg».proof.Proof.RefRead
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.GraphConv.Walk

open Cert.KernelIdeal Cert.KernelIdeal.Gen Idealize.ShloMosaic.StableHlo

variable {F : FTy → Type} [FloatOps F]
variable (m : (ℓ : Loc nD τ sig) → Buf (Elt F) ℓ) (ρ : Dev nD → PrngReg)

/-! ## Before the first region -/

theorem W5_v32 (c : Dev nD) : W5 m ρ c (Proc.devRef .tc main_v32) = Cert.ReferenceIdeal.ReadP.val_main_v32 (F := F) (m ((c : Thread nD τ).loc main_arg0)) (m ((c : Thread nD τ).loc main_arg8)) (m ((c : Thread nD τ).loc main_arg9)) := by
  dsimp only [W5, W4, W3, W2, W1, W0]
  after_results_simp <;> rfl

theorem W5_v33 (c : Dev nD) : W5 m ρ c (Proc.devRef .tc main_v33) = shapeCast _ (m ((c : Thread nD τ).loc main_arg2)) shapeCasts_S256_S1x256 := by
  dsimp only [W5, W4, W3, W2, W1, W0]
  after_results_simp <;> rfl

theorem W5_v11 (c : Dev nD) : W5 m ρ c (Proc.devRef .tc main_v11) = Cert.ReferenceIdeal.ReadP.val_main_v11 (F := F) (m ((c : Thread nD τ).loc main_arg8)) := by
  dsimp only [W5, W4, W3, W2, W1, W0]
  after_results_simp <;> rfl

theorem W5_v16 (c : Dev nD) : W5 m ρ c (Proc.devRef .tc main_v16) = Cert.ReferenceIdeal.ReadP.val_main_v16 (F := F) (m ((c : Thread nD τ).loc main_arg9)) := by
  dsimp only [W5, W4, W3, W2, W1, W0]
  after_results_simp <;> rfl

theorem W5_arg1 (c : Dev nD) : W5 m ρ c (Proc.devRef .tc main_arg1) = (m ((c : Thread nD τ).loc main_arg1)) := by
  dsimp only [W5, W4, W3, W2, W1, W0]
  after_results_simp <;> rfl

theorem W5_arg3 (c : Dev nD) : W5 m ρ c (Proc.devRef .tc main_arg3) = (m ((c : Thread nD τ).loc main_arg3)) := by
  dsimp only [W5, W4, W3, W2, W1, W0]
  after_results_simp <;> rfl

theorem W5_arg4 (c : Dev nD) : W5 m ρ c (Proc.devRef .tc main_arg4) = (m ((c : Thread nD τ).loc main_arg4)) := by
  dsimp only [W5, W4, W3, W2, W1, W0]
  after_results_simp <;> rfl

theorem W5_arg5 (c : Dev nD) : W5 m ρ c (Proc.devRef .tc main_arg5) = (m ((c : Thread nD τ).loc main_arg5)) := by
  dsimp only [W5, W4, W3, W2, W1, W0]
  after_results_simp <;> rfl

theorem W5_arg6 (c : Dev nD) : W5 m ρ c (Proc.devRef .tc main_arg6) = (m ((c : Thread nD τ).loc main_arg6)) := by
  dsimp only [W5, W4, W3, W2, W1, W0]
  after_results_simp <;> rfl

theorem W5_arg7 (c : Dev nD) : W5 m ρ c (Proc.devRef .tc main_arg7) = (m ((c : Thread nD τ).loc main_arg7)) := by
  dsimp only [W5, W4, W3, W2, W1, W0]
  after_results_simp <;> rfl

theorem W5_arg8 (c : Dev nD) : W5 m ρ c (Proc.devRef .tc main_arg8) = (m ((c : Thread nD τ).loc main_arg8)) := by
  dsimp only [W5, W4, W3, W2, W1, W0]
  after_results_simp <;> rfl

theorem W5_arg9 (c : Dev nD) : W5 m ρ c (Proc.devRef .tc main_arg9) = (m ((c : Thread nD τ).loc main_arg9)) := by
  dsimp only [W5, W4, W3, W2, W1, W0]
  after_results_simp <;> rfl

theorem W5_arg10 (c : Dev nD) : W5 m ρ c (Proc.devRef .tc main_arg10) = (m ((c : Thread nD τ).loc main_arg10)) := by
  dsimp only [W5, W4, W3, W2, W1, W0]
  after_results_simp <;> rfl

/-! ## Across the first two regions: a buffer neither region's windows name keeps its contents -/

theorem W7_v11 (c : Dev nD) : W7 m ρ c (Proc.devRef .tc main_v11) = Cert.ReferenceIdeal.ReadP.val_main_v11 (F := F) (m ((c : Thread nD τ).loc main_arg8)) :=
  ((W7_of_ne m ρ c main_v11 (by decide)).trans (W6_of_ne m ρ c main_v11 (by decide))).trans (W5_v11 m ρ c)

theorem W7_v16 (c : Dev nD) : W7 m ρ c (Proc.devRef .tc main_v16) = Cert.ReferenceIdeal.ReadP.val_main_v16 (F := F) (m ((c : Thread nD τ).loc main_arg9)) :=
  ((W7_of_ne m ρ c main_v16 (by decide)).trans (W6_of_ne m ρ c main_v16 (by decide))).trans (W5_v16 m ρ c)

theorem W7_arg4 (c : Dev nD) : W7 m ρ c (Proc.devRef .tc main_arg4) = (m ((c : Thread nD τ).loc main_arg4)) :=
  ((W7_of_ne m ρ c main_arg4 (by decide)).trans (W6_of_ne m ρ c main_arg4 (by decide))).trans (W5_arg4 m ρ c)

theorem W7_arg5 (c : Dev nD) : W7 m ρ c (Proc.devRef .tc main_arg5) = (m ((c : Thread nD τ).loc main_arg5)) :=
  ((W7_of_ne m ρ c main_arg5 (by decide)).trans (W6_of_ne m ρ c main_arg5 (by decide))).trans (W5_arg5 m ρ c)

theorem W7_arg6 (c : Dev nD) : W7 m ρ c (Proc.devRef .tc main_arg6) = (m ((c : Thread nD τ).loc main_arg6)) :=
  ((W7_of_ne m ρ c main_arg6 (by decide)).trans (W6_of_ne m ρ c main_arg6 (by decide))).trans (W5_arg6 m ρ c)

theorem W7_arg7 (c : Dev nD) : W7 m ρ c (Proc.devRef .tc main_arg7) = (m ((c : Thread nD τ).loc main_arg7)) :=
  ((W7_of_ne m ρ c main_arg7 (by decide)).trans (W6_of_ne m ρ c main_arg7 (by decide))).trans (W5_arg7 m ρ c)

theorem W7_arg8 (c : Dev nD) : W7 m ρ c (Proc.devRef .tc main_arg8) = (m ((c : Thread nD τ).loc main_arg8)) :=
  ((W7_of_ne m ρ c main_arg8 (by decide)).trans (W6_of_ne m ρ c main_arg8 (by decide))).trans (W5_arg8 m ρ c)

theorem W7_arg9 (c : Dev nD) : W7 m ρ c (Proc.devRef .tc main_arg9) = (m ((c : Thread nD τ).loc main_arg9)) :=
  ((W7_of_ne m ρ c main_arg9 (by decide)).trans (W6_of_ne m ρ c main_arg9 (by decide))).trans (W5_arg9 m ρ c)

theorem W7_arg10 (c : Dev nD) : W7 m ρ c (Proc.devRef .tc main_arg10) = (m ((c : Thread nD τ).loc main_arg10)) :=
  ((W7_of_ne m ρ c main_arg10 (by decide)).trans (W6_of_ne m ρ c main_arg10 (by decide))).trans (W5_arg10 m ρ c)

theorem W6_arg3 (c : Dev nD) : W6 m ρ c (Proc.devRef .tc main_arg3) = (m ((c : Thread nD τ).loc main_arg3)) :=
  (W6_of_ne m ρ c main_arg3 (by decide)).trans (W5_arg3 m ρ c)

/-! ## Before the third region -/

/-- The pooled region's first operand: the second aggregate, biased and re-laid as [2048, 128, 128], when the second
    projection's array holds the reference's second product. -/
theorem W8_v55 (c : Dev nD)
    (hP : W7 m ρ c (Proc.devRef .tc main_v35) = Cert.ReferenceIdeal.ReadP.val_main_v38 (F := F) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))) :
    W8 m ρ c (Proc.devRef .tc main_v55) = Cert.ReferenceIdeal.ReadP.val_main_v58 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) := by
  dsimp only [W8]
  after_results_simp
  rw [hP, W7_v11, W7_v16, W7_arg8, W7_arg9, W7_arg4]
  rfl

theorem W8_v62 (c : Dev nD) : W8 m ρ c (Proc.devRef .tc main_v62) = Cert.ReferenceIdeal.ReadP.val_main_v68 (F := F) (m ((c : Thread nD τ).loc main_arg5)) (m ((c : Thread nD τ).loc main_arg10)) := by
  dsimp only [W8]
  after_results_simp
  rw [W7_arg5, W7_arg10]
  rfl

theorem W8_v63 (c : Dev nD) : W8 m ρ c (Proc.devRef .tc main_v63) = extractStridedSlice S128x6 ![0, 0] (m ((c : Thread nD τ).loc main_arg6)) slices_S256x6_S128x6_0_0 := by
  dsimp only [W8]
  after_results_simp
  rw [W7_arg6]

theorem W8_v64 (c : Dev nD) : W8 m ρ c (Proc.devRef .tc main_v64) = extractStridedSlice S128x6 ![128, 0] (m ((c : Thread nD τ).loc main_arg6)) slices_S256x6_S128x6_128_0 := by
  dsimp only [W8]
  after_results_simp
  rw [W7_arg6]

theorem W8_v65 (c : Dev nD) : W8 m ρ c (Proc.devRef .tc main_v65) = shapeCast _ (m ((c : Thread nD τ).loc main_arg7)) shapeCasts_S6_S1x6 := by
  dsimp only [W8]
  after_results_simp
  rw [W7_arg7]
  rfl

end Cert.GraphConv.Walk

end
-- ==== Proof.RefIdx.lean ====
/-
  The reference program read at an index. Its first projection layer, at row r and feature q, is
  max (∑ₖ A(r, k) · W1(k, q) + b1(q)) 0 over the normalised aggregate A; its second projection is
  ∑ₖ H(r, k) · W2(k, q) over that hidden array H; and its classifier head, at graph g and class q, is the product of
  the row [mean over the 128 nodes of the graph | organism embedding] with the classifier weight plus the bias: the sum
  over the 256 joined features splits at 128 into the pooled half against the weight's upper rows and the embedding half
  against its lower rows. Sums of extended reals regroup freely, so no finiteness is needed.
-/
import proofs.«167016_j24756191494756_1_alg».proof.Proof.RefRead
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem

namespace Cert.GraphConv.RefAt

open Cert.ReferenceIdeal Cert.ReferenceIdeal.Gen Cert.ReferenceIdeal.ReadP

/-- A half of the classifier weight: 128 rows, 6 classes. -/
abbrev S128x6 : Shape := ⟨2, ![128, 6]⟩

/-! ## The first projection layer -/

theorem layer1_at (x0 : (⟨S262144x128, .f32⟩ : BufTy).Contents (Elt Ideal)) (x1 : (⟨S128x256, .f32⟩ : BufTy).Contents (Elt Ideal)) (x2 : (⟨S256, .f32⟩ : BufTy).Contents (Elt Ideal)) (x8 x9 : (⟨S2097152, .i32⟩ : BufTy).Contents (Elt Ideal))
    (hc : S256.ShapeCasts S1x256)
    (i : S262144x256.Idx) (li : Fin 128 → S262144x128.Idx) (ri : Fin 128 → S128x256.Idx) (bi : S1x256.Idx)
    (hl : ∀ k, ((li k) 0).val = (i 0).val ∧ ((li k) 1).val = k.val) (hr : ∀ k, ((ri k) 0).val = k.val ∧ ((ri k) 1).val = (i 1).val)
    (hb : (bi 0).val = 0 ∧ (bi 1).val = (i 1).val) :
    val_main_v37 (F := Ideal) x0 x1 x2 x8 x9 i
      = max ((∑ k : Fin 128, val_main_v32 (F := Ideal) x0 x8 x9 (li k) * x1 (ri k)) + shapeCast S1x256 x2 hc bi) 0 := by
  rw [val_main_v37_apply, val_main_v36_apply, val_main_v33_apply, val_main_v35_apply, val_main_v34_apply,
    val_main_call2_v0_apply, val_main_call2_cst_apply]
  have e1 : ∀ k, lidx_main_v33 i k = li k := fun k => funext fun a => Fin.ext (by
    match a with
    | ⟨0, _⟩ => exact (hl k).1.symm
    | ⟨1, _⟩ => exact (hl k).2.symm)
  have e2 : ∀ k, ridx_main_v33 i k = ri k := fun k => funext fun a => Fin.ext (by
    match a with
    | ⟨0, _⟩ => exact (hr k).1.symm
    | ⟨1, _⟩ => exact (hr k).2.symm)
  have e3 : shapeCast S1x256 x2 hc bi = x2 (idx_main_v34 (idx_main_v35 i)) :=
    shapeCast_apply x2 hc bi (idx_main_v34 (idx_main_v35 i)) (by
      rewrite [Shape.rowMajor_val_one, Shape.rowMajor_val_two]
      show (i 1).val = (bi 0).val * 256 + (bi 1).val
      rw [hb.1, hb.2]; omega)
  simp only [e1, e2, e3, Ideal.maximumf_def, Ideal.addf_def, Ideal.ofBits_def, Ideal.ofBits_zero_f32]

/-! ## The second projection layer -/

theorem layer2_at (x0 : (⟨S262144x128, .f32⟩ : BufTy).Contents (Elt Ideal)) (x1 : (⟨S128x256, .f32⟩ : BufTy).Contents (Elt Ideal)) (x2 : (⟨S256, .f32⟩ : BufTy).Contents (Elt Ideal)) (x3 : (⟨S256x128, .f32⟩ : BufTy).Contents (Elt Ideal)) (x8 x9 : (⟨S2097152, .i32⟩ : BufTy).Contents (Elt Ideal))
    (i : S262144x128.Idx) (li : Fin 256 → S262144x256.Idx) (ri : Fin 256 → S256x128.Idx)
    (hl : ∀ k, ((li k) 0).val = (i 0).val ∧ ((li k) 1).val = k.val) (hr : ∀ k, ((ri k) 0).val = k.val ∧ ((ri k) 1).val = (i 1).val) :
    val_main_v38 (F := Ideal) x0 x1 x2 x3 x8 x9 i = ∑ k : Fin 256, val_main_v37 (F := Ideal) x0 x1 x2 x8 x9 (li k) * x3 (ri k) := by
  rw [val_main_v38_apply]
  refine Finset.sum_congr rfl fun k _ => ?_
  have e1 : lidx_main_v38 i k = li k := funext fun a => Fin.ext (by
    match a with
    | ⟨0, _⟩ => exact (hl k).1.symm
    | ⟨1, _⟩ => exact (hl k).2.symm)
  have e2 : ridx_main_v38 i k = ri k := funext fun a => Fin.ext (by
    match a with
    | ⟨0, _⟩ => exact (hr k).1.symm
    | ⟨1, _⟩ => exact (hr k).2.symm)
  rw [e1, e2]

/-! ## The classifier head -/

/-- The joined row's first 128 features are the pooled row's. -/
theorem concat_left (y1 y2 : S2048x128.Idx → EReal) (j : S2048x256.Idx) (i' : S2048x128.Idx)
    (h0 : (i' 0).val = (j 0).val) (h1 : (i' 1).val = (j 1).val) :
    concatenate S2048x256 1 [⟨S2048x128, y1⟩, ⟨S2048x128, y2⟩] concatenates_S2048x128_S2048x128_S2048x256_d1 j = y1 i' :=
  concatenate_apply_piece (1 : Fin S2048x256.rank) [⟨S2048x128, y1⟩, ⟨S2048x128, y2⟩] concatenates_S2048x128_S2048x128_S2048x256_d1 j
    0 (by show 0 < 2; omega) S2048x128 y1 rfl rfl 0 rfl i'
    (fun b hb => by
      match b with
      | ⟨0, _⟩ => exact h0
      | ⟨1, _⟩ => exact absurd rfl hb)
    (by show 0 + (i' 1).val = (j 1).val; omega)

/-- The joined row's last 128 features are the embedding row's. -/
theorem concat_right (y1 y2 : S2048x128.Idx → EReal) (j : S2048x256.Idx) (i' : S2048x128.Idx)
    (h0 : (i' 0).val = (j 0).val) (h1 : 128 + (i' 1).val = (j 1).val) :
    concatenate S2048x256 1 [⟨S2048x128, y1⟩, ⟨S2048x128, y2⟩] concatenates_S2048x128_S2048x128_S2048x256_d1 j = y2 i' :=
  concatenate_apply_piece (1 : Fin S2048x256.rank) [⟨S2048x128, y1⟩, ⟨S2048x128, y2⟩] concatenates_S2048x128_S2048x128_S2048x256_d1 j
    1 (by show 1 < 2; omega) S2048x128 y2 rfl rfl 128 (by rfl) i'
    (fun b hb => by
      match b with
      | ⟨0, _⟩ => exact h0
      | ⟨1, _⟩ => exact absurd rfl hb)
    (by show 128 + (i' 1).val = (j 1).val; omega)

/-- The pooled row at graph g, feature k: the sum over the graph's 128 nodes of the re-laid second aggregate, over 128. -/
theorem pooled_at (x0 : (⟨S262144x128, .f32⟩ : BufTy).Contents (Elt Ideal)) (x1 : (⟨S128x256, .f32⟩ : BufTy).Contents (Elt Ideal)) (x2 : (⟨S256, .f32⟩ : BufTy).Contents (Elt Ideal)) (x3 : (⟨S256x128, .f32⟩ : BufTy).Contents (Elt Ideal)) (x4 : (⟨S128, .f32⟩ : BufTy).Contents (Elt Ideal)) (x8 x9 : (⟨S2097152, .i32⟩ : BufTy).Contents (Elt Ideal))
    (i' : S2048x128.Idx) (zi : Fin 128 → S2048x128x128.Idx)
    (hz : ∀ l, ((zi l) 0).val = (i' 0).val ∧ ((zi l) 1).val = l.val ∧ ((zi l) 2).val = (i' 1).val) :
    val_main_v61 (F := Ideal) x0 x1 x2 x3 x4 x8 x9 i'
      = Ideal.div (∑ l : Fin 128, val_main_v58 (F := Ideal) x0 x1 x2 x3 x4 x8 x9 (zi l)) (Ideal.ofBits .f32 0x43000000#32) := by
  rw [val_main_v61_apply, val_main_v59_apply, val_main_v60_apply, val_main_cst_13_apply, val_main_cst_14_apply]
  have e : ∀ l, idx_main_v59 i' l = zi l := fun l => funext fun a => Fin.ext (by
    match a with
    | ⟨0, _⟩ => exact (hz l).1.symm
    | ⟨1, _⟩ => exact (hz l).2.1.symm
    | ⟨2, _⟩ => exact (hz l).2.2.symm)
  simp only [e, Ideal.hostDivf_def, Ideal.ofBits_def, Ideal.ofBits_zero_f32, zero_add]

theorem head_at (x0 : (⟨S262144x128, .f32⟩ : BufTy).Contents (Elt Ideal)) (x1 : (⟨S128x256, .f32⟩ : BufTy).Contents (Elt Ideal)) (x2 : (⟨S256, .f32⟩ : BufTy).Contents (Elt Ideal)) (x3 : (⟨S256x128, .f32⟩ : BufTy).Contents (Elt Ideal)) (x4 : (⟨S128, .f32⟩ : BufTy).Contents (Elt Ideal)) (x5 : (⟨S4x128, .f32⟩ : BufTy).Contents (Elt Ideal)) (x6 : (⟨S256x6, .f32⟩ : BufTy).Contents (Elt Ideal)) (x7 : (⟨S6, .f32⟩ : BufTy).Contents (Elt Ideal)) (x8 x9 : (⟨S2097152, .i32⟩ : BufTy).Contents (Elt Ideal)) (x10 : (⟨S2048, .i32⟩ : BufTy).Contents (Elt Ideal))
    (hs1 : S256x6.Slices ![0, 0] S128x6) (hs2 : S256x6.Slices ![128, 0] S128x6) (hc : S6.ShapeCasts S1x6)
    (i : S2048x6.Idx) (zi : Fin 128 → Fin 128 → S2048x128x128.Idx) (oi : Fin 128 → S2048x128.Idx) (wi : Fin 128 → S128x6.Idx) (bi : S1x6.Idx)
    (hz : ∀ k l, ((zi k l) 0).val = (i 0).val ∧ ((zi k l) 1).val = l.val ∧ ((zi k l) 2).val = k.val)
    (ho : ∀ k, ((oi k) 0).val = (i 0).val ∧ ((oi k) 1).val = k.val)
    (hw : ∀ k, ((wi k) 0).val = k.val ∧ ((wi k) 1).val = (i 1).val)
    (hb : (bi 0).val = 0 ∧ (bi 1).val = (i 1).val) :
    val_main_v73 (F := Ideal) x0 x1 x2 x3 x4 x5 x6 x7 x8 x9 x10 i
      = ((∑ k : Fin 128, Ideal.div (∑ l : Fin 128, val_main_v58 (F := Ideal) x0 x1 x2 x3 x4 x8 x9 (zi k l)) (Ideal.ofBits .f32 0x43000000#32)
              * extractStridedSlice S128x6 ![0, 0] x6 hs1 (wi k))
          + (∑ k : Fin 128, val_main_v68 (F := Ideal) x5 x10 (oi k) * extractStridedSlice S128x6 ![128, 0] x6 hs2 (wi k)))
        + shapeCast S1x6 x7 hc bi := by
  rw [val_main_v73_apply, val_main_v70_apply, val_main_v72_apply, val_main_v71_apply]
  have eb : shapeCast S1x6 x7 hc bi = x7 (idx_main_v71 (idx_main_v72 i)) :=
    shapeCast_apply x7 hc bi (idx_main_v71 (idx_main_v72 i)) (by
      rewrite [Shape.rowMajor_val_one, Shape.rowMajor_val_two]
      show (i 1).val = (bi 0).val * 6 + (bi 1).val
      rw [hb.1, hb.2]; omega)
  rw [eb]
  simp only [Ideal.addf_def]
  refine congrArg (· + x7 (idx_main_v71 (idx_main_v72 i))) ?_
  show (∑ k : Fin (128 + 128), val_main_v69 (F := Ideal) x0 x1 x2 x3 x4 x5 x8 x9 x10 (lidx_main_v70 i k) * x6 (ridx_main_v70 i k)) = _
  rw [Fin.sum_univ_add]
  refine congrArg₂ (· + ·) (Finset.sum_congr rfl fun k _ => ?_) (Finset.sum_congr rfl fun k _ => ?_)
  · -- the pooled half against the weight's upper rows
    have hk : k.val < 128 := k.isLt
    let i' : S2048x128.Idx := fun a => match a with
      | ⟨0, _⟩ => ⟨(i 0).val, (i 0).isLt⟩
      | ⟨1, _⟩ => ⟨k.val, k.isLt⟩
    have ec : val_main_v69 (F := Ideal) x0 x1 x2 x3 x4 x5 x8 x9 x10 (lidx_main_v70 i (Fin.castAdd 128 k))
        = val_main_v61 (F := Ideal) x0 x1 x2 x3 x4 x8 x9 i' := by
      unfold val_main_v69
      exact concat_left _ _ _ i' rfl rfl
    have ew : extractStridedSlice S128x6 ![0, 0] x6 hs1 (wi k) = x6 (ridx_main_v70 i (Fin.castAdd 128 k)) :=
      extractStridedSlice_apply ![0, 0] x6 hs1 (wi k) (ridx_main_v70 i (Fin.castAdd 128 k)) (fun a => by
        match a with
        | ⟨0, _⟩ => show k.val = 0 + ((wi k) 0).val; rw [(hw k).1]; omega
        | ⟨1, _⟩ => show (i 1).val = 0 + ((wi k) 1).val; rw [(hw k).2]; omega)
    rw [ec, ew, pooled_at x0 x1 x2 x3 x4 x8 x9 i' (zi k) (fun l => ⟨(hz k l).1, (hz k l).2.1, (hz k l).2.2⟩)]
  · -- the embedding half against the weight's lower rows
    have hk : k.val < 128 := k.isLt
    have ec : val_main_v69 (F := Ideal) x0 x1 x2 x3 x4 x5 x8 x9 x10 (lidx_main_v70 i (Fin.natAdd 128 k))
        = val_main_v68 (F := Ideal) x5 x10 (oi k) := by
      unfold val_main_v69
      exact concat_right _ _ _ (oi k) (ho k).1 (by show 128 + ((oi k) 1).val = 128 + k.val; rw [(ho k).2])
    have ew : extractStridedSlice S128x6 ![128, 0] x6 hs2 (wi k) = x6 (ridx_main_v70 i (Fin.natAdd 128 k)) :=
      extractStridedSlice_apply ![128, 0] x6 hs2 (wi k) (ridx_main_v70 i (Fin.natAdd 128 k)) (fun a => by
        match a with
        | ⟨0, _⟩ => show 128 + k.val = 128 + ((wi k) 0).val; rw [(hw k).1]
        | ⟨1, _⟩ => show (i 1).val = 0 + ((wi k) 1).val; rw [(hw k).2]; omega)
    rw [ec, ew]

end Cert.GraphConv.RefAt

end
-- ==== Proof.KValue.lean ====
/-
  The kernel's program as a value. Its three kernel regions compute, block by block, exactly the three dense stages of
  the reference — the first projection with bias and rectifier, the second projection, and the mean-pool with the
  classifier — and the host operations around them are the reference's own. So at each region's entry the windows'
  arrays hold the reference's stage functions of the eleven arguments, each region's output array is the next stage
  function, and the program's result is the reference's result function of the arguments.
-/
import proofs.«167016_j24756191494756_1_alg».proof.Proof.Gen.KernelIdeal.Frame
import proofs.«167016_j24756191494756_1_alg».proof.Proof.KRun
import proofs.«167016_j24756191494756_1_alg».proof.Proof.Region0
import proofs.«167016_j24756191494756_1_alg».proof.Proof.Region1
import proofs.«167016_j24756191494756_1_alg».proof.Proof.Region2
import proofs.«167016_j24756191494756_1_alg».proof.Proof.Walk
import proofs.«167016_j24756191494756_1_alg».proof.Proof.RefIdx

set_option maxRecDepth 16384

noncomputable section

open Idealize.ShloMosaic Idealize.ShloMosaic.TcCoe Idealize.SL.Sem
open Idealize.ShloMosaic.Pipeline (Dat)

namespace Cert.GraphConv.Value

open Cert.KernelIdeal Cert.KernelIdeal.Gen

variable (m : (ℓ : Loc nD τ sig) → Buf (Elt Ideal) ℓ) (ρ : Dev nD → PrngReg)

/-- After the first region its output array is the reference's hidden array. -/
theorem hidden (c : Dev nD) :
    ((dat0 (V5 m ρ) c).arrAt 3 cfg0.N : S262144x256.Idx → EReal)
      = Cert.ReferenceIdeal.ReadP.val_main_v37 (F := Ideal) (m ((c : Thread nD τ).loc main_arg0)) (m ((c : Thread nD τ).loc main_arg1)) (m ((c : Thread nD τ).loc main_arg2)) (m ((c : Thread nD τ).loc main_arg8)) (m ((c : Thread nD τ).loc main_arg9)) :=
  Cert.GraphConv.Layer1.final (V5 m ρ) c _ _ _ _ (Cert.GraphConv.Walk.W5_v32 m ρ c) (Cert.GraphConv.Walk.W5_arg1 m ρ c)
    (Cert.GraphConv.Walk.W5_v33 m ρ c)
    (fun i li ri bi hl hr hb => Cert.GraphConv.RefAt.layer1_at (m ((c : Thread nD τ).loc main_arg0)) (m ((c : Thread nD τ).loc main_arg1)) (m ((c : Thread nD τ).loc main_arg2)) (m ((c : Thread nD τ).loc main_arg8)) (m ((c : Thread nD τ).loc main_arg9)) _ i li ri bi hl hr hb)

theorem W6_v34 (c : Dev nD) :
    (W6 m ρ c (Proc.devRef .tc main_v34) : S262144x256.Idx → EReal) = Cert.ReferenceIdeal.ReadP.val_main_v37 (F := Ideal) (m ((c : Thread nD τ).loc main_arg0)) (m ((c : Thread nD τ).loc main_arg1)) (m ((c : Thread nD τ).loc main_arg2)) (m ((c : Thread nD τ).loc main_arg8)) (m ((c : Thread nD τ).loc main_arg9)) :=
  (W6_arr m ρ c 3).trans (hidden m ρ c)

/-- After the second region its output array is the reference's second product. -/
theorem projected (c : Dev nD) :
    ((dat1 (V6 m ρ) c).arrAt 2 cfg1.N : S262144x128.Idx → EReal)
      = Cert.ReferenceIdeal.ReadP.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  Cert.GraphConv.Layer2.final (V6 m ρ) c _ _ _ (W6_v34 m ρ c) (Cert.GraphConv.Walk.W6_arg3 m ρ c)
    (fun i li ri hl hr => Cert.GraphConv.RefAt.layer2_at (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) i li ri hl hr)

theorem W7_v35 (c : Dev nD) :
    W7 m ρ c (Proc.devRef .tc main_v35) = Cert.ReferenceIdeal.ReadP.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  (W7_arr m ρ c 2).trans (projected m ρ c)

/-- After the third region its output array is the reference's result. -/
theorem logits (c : Dev nD) :
    ((dat2 (V8 m ρ) c).arrAt 5 cfg2.N : S2048x6.Idx → EReal)
      = Cert.ReferenceIdeal.ReadP.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  Cert.GraphConv.Head.final (V8 m ρ) c _ _ _ _ _ _ (Cert.GraphConv.Walk.W8_v55 m ρ c (W7_v35 m ρ c)) (Cert.GraphConv.Walk.W8_v62 m ρ c)
    (Cert.GraphConv.Walk.W8_v63 m ρ c) (Cert.GraphConv.Walk.W8_v64 m ρ c) (Cert.GraphConv.Walk.W8_v65 m ρ c)
    (fun i zi oi wi bi hz ho hw hb =>
      Cert.GraphConv.RefAt.head_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _ _ _ i zi oi wi bi hz ho hw hb)

/-- The result buffer at the last boundary is the reference's result function of the arguments. -/
theorem result (c : Dev nD) :
    W9 m ρ c (Proc.devRef .tc main_v66) = Cert.ReferenceIdeal.ReadP.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W9_arr m ρ c 5).trans (logits m ρ c)

/-- The run, read: the result at the reference's function of the arguments, the arguments unchanged. -/
theorem run : θ_run defs (onTc (τ := τ) (main (F := Ideal))) ⟨m, fun _ => 0, ρ⟩ (fun r => ∀ c : Dev nD,
      r.2.mem ((c.tc : Thread nD τ).loc main_v66) = Cert.ReferenceIdeal.ReadP.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (result m ρ c), (h c).2⟩) (Cert.KernelIdeal.RunNamed.run_named m ρ)

end Cert.GraphConv.Value

end
-- ==== Proof.lean ====
/-
  The certificate of the graph-convolution classifier. The kernel program runs three dense stages as kernel regions —
  relu (A · W1 + b1) over the normalised neighbourhood aggregate A, the product with W2, and the mean over each graph's
  128 nodes joined with the organism embedding against the classifier weight — with the degree normalisation, the
  gathers and the scatter-adds on the host, exactly as the reference does them. At the extended reals a change of float
  format is the identity, a product into a zero accumulator is the plain sum, and the classifier's product over the 256
  joined features is the sum of its two halves, so both programs end at one function of the arguments. The three frames
  are the generated ones (the reference's is its run with the result dropped); nothing was rewritten by the ideal pass.
-/
import proofs.«167016_j24756191494756_1_alg».proof.Defs
import proofs.«167016_j24756191494756_1_alg».proof.Proof.Gen.Kernel
import proofs.«167016_j24756191494756_1_alg».proof.Proof.Gen.Kernel.Frame
import proofs.«167016_j24756191494756_1_alg».proof.Proof.Gen.KernelIdeal
import proofs.«167016_j24756191494756_1_alg».proof.Proof.Gen.KernelIdeal.Frame
import proofs.«167016_j24756191494756_1_alg».proof.Proof.Gen.ReferenceIdeal
import proofs.«167016_j24756191494756_1_alg».proof.Proof.Gen.Pre_finite_inputs
import proofs.«167016_j24756191494756_1_alg».proof.Proof.RefRun
import proofs.«167016_j24756191494756_1_alg».proof.Proof.RefRead
import proofs.«167016_j24756191494756_1_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- Both programs end at the reference's result function of the arguments: the kernel program by its value
    (`Cert.GraphConv.Value.run`), the reference by its run, the arguments' agreement rewritten. -/
theorem algebraic : Cert.algebraic_KernelIdeal_ReferenceIdeal := by
  intro m ρ m' ρ' _ hagree
  refine ⟨_, Cert.GraphConv.Value.run m ρ, ?_⟩
  refine (θ_run Cert.ReferenceIdeal.defs _ _).mono (fun _ h c => ⟨(h c).1.trans ?_, (h c).2⟩) (Cert.ReferenceIdeal.RunP.run (F := Ideal) m' ρ')
  rw [Cert.ReferenceIdeal.ReadP.val_main_v73_eq]
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
